-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x4 : Shape := ⟨3, ![32, 512, 4]⟩
abbrev S32x2048x4 : Shape := ⟨3, ![32, 2048, 4]⟩
abbrev S32 : Shape := ⟨1, ![32]⟩
abbrev S_ : Shape := ⟨0, ![]⟩

class Facts : Prop where
  bcast_S_S32x512x4 : S_.BroadcastsInDim S32x512x4 (![] : Fin 0 → Fin S32x512x4.rank)
  reducesTo_S32x512x4_S_d0_1_2 : S32x512x4.ReducesTo [0, 1, 2] S_
  h_S_ : 0 < S_.numel
  bcast_S_S32x2048x4 : S_.BroadcastsInDim S32x2048x4 (![] : Fin 0 → Fin S32x2048x4.rank)
  reducesTo_S32x2048x4_S_d0_1_2 : S32x2048x4.ReducesTo [0, 1, 2] S_

variable [Facts]

def fn {F : FTy → Type} [FloatOps F] (main_arg0 : FVec F S32x512x4 .f32) (main_arg1 : FVec F S32x2048x4 .f32) (main_arg2 : IVec S32 32) : IVec S_ 1 :=
  let main_v0 : FVec F S32x512x4 .f32 := Host.absf main_arg0
  let main_cst : FVec F S_ .f32 := constant S_ .f32 0x7F800000#32
  let main_v1 : FVec F S32x512x4 .f32 := broadcastInDim S32x512x4 ![] bcast_S_S32x512x4 main_cst
  let main_v2 : IVec S32x512x4 1 := cmpf .olt main_v0 main_v1
  let main_c : IVec S_ 1 := constantI S_ 1 1#1
  let main_v3 : IVec S_ 1 := (fun x v => Host.reduce IntOp.andi x v reducesTo_S32x512x4_S_d0_1_2 h_S_) main_v2 main_c
  let main_v4 : FVec F S32x2048x4 .f32 := Host.absf main_arg1
  let main_cst_0 : FVec F S_ .f32 := constant S_ .f32 0x7F800000#32
  let main_v5 : FVec F S32x2048x4 .f32 := broadcastInDim S32x2048x4 ![] bcast_S_S32x2048x4 main_cst_0
  let main_v6 : IVec S32x2048x4 1 := cmpf .olt main_v4 main_v5
  let main_c_1 : IVec S_ 1 := constantI S_ 1 1#1
  let main_v7 : IVec S_ 1 := (fun x v => Host.reduce IntOp.andi x v reducesTo_S32x2048x4_S_d0_1_2 h_S_) main_v6 main_c_1
  let main_v8 : IVec S_ 1 := andi main_v3 main_v7
  main_v8
-- ==== Kernel.lean ====
abbrev S32x512x4 : Shape := ⟨3, ![32, 512, 4]⟩
abbrev S32x2048x4 : Shape := ⟨3, ![32, 2048, 4]⟩
abbrev S32 : Shape := ⟨1, ![32]⟩
abbrev S1x1 : Shape := ⟨2, ![1, 1]⟩
abbrev S1x512x4 : Shape := ⟨3, ![1, 512, 4]⟩
abbrev S1x4x512 : Shape := ⟨3, ![1, 4, 512]⟩
abbrev S1x512x1 : Shape := ⟨3, ![1, 512, 1]⟩
abbrev S1x1x512 : Shape := ⟨3, ![1, 1, 512]⟩
abbrev S1x512x512 : Shape := ⟨3, ![1, 512, 512]⟩
abbrev S1x512 : Shape := ⟨2, ![1, 512]⟩
abbrev S1 : Shape := ⟨1, ![1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S32x512x4, .f32⟩
  | .hbm, ⟨1, _⟩ => ⟨S32x2048x4, .f32⟩
  | .hbm, ⟨2, _⟩ => ⟨S32, .i32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x512x4, .f32⟩
  | .local _ .vmem, ⟨1, _⟩ => ⟨S1x512x4, .f32⟩
  | .local _ .vmem, ⟨2, _⟩ => ⟨S1x512x4, .f32⟩
  | .local _ .vmem, ⟨3, _⟩ => ⟨S1x512x4, .f32⟩
  | .local _ .vmem, ⟨4, _⟩ => ⟨S1x1, .f32⟩
  | _, _ => ⟨S32x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  inb_S1x512x4_S1x512x4_0_0_0 : ∀ a, (![0, 0, 0] : Fin 3 → Nat) a + S1x512x4.size a ≤ S1x512x4.size a
  h_S1x512x4 : 0 < S1x512x4.numel
  transposes_S1x512x4_p0_2_1_S1x4x512 : S1x512x4.Transposes [0, 2, 1] S1x4x512
  slices_S1x512x4_o0_0_0_S1x512x1 : S1x512x4.Slices ![0, 0, 0] S1x512x1
  slices_S1x512x4_o0_0_1_S1x512x1 : S1x512x4.Slices ![0, 0, 1] S1x512x1
  slices_S1x512x4_o0_0_2_S1x512x1 : S1x512x4.Slices ![0, 0, 2] S1x512x1
  slices_S1x512x4_o0_0_3_S1x512x1 : S1x512x4.Slices ![0, 0, 3] S1x512x1
  slices_S1x4x512_o0_0_0_S1x1x512 : S1x4x512.Slices ![0, 0, 0] S1x1x512
  slices_S1x4x512_o0_1_0_S1x1x512 : S1x4x512.Slices ![0, 1, 0] S1x1x512
  slices_S1x4x512_o0_2_0_S1x1x512 : S1x4x512.Slices ![0, 2, 0] S1x1x512
  slices_S1x4x512_o0_3_0_S1x1x512 : S1x4x512.Slices ![0, 3, 0] S1x1x512
  broadcasts_S1x512x1_S1x512x512 : S1x512x1.Broadcasts S1x512x512
  broadcasts_S1x1x512_S1x512x512 : S1x1x512.Broadcasts S1x512x512
  reduces_S1x512x512_S1x512 : S1x512x512.Reduces [2] S1x512
  reduces_S1x512_S1 : S1x512.Reduces [1] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4.size a ≤ S32x2048x4.size a
  hwx0_0 : ∀ i : grid0.Coords, EltTy.bits .f32 = 32 ∨ (Rect.block (s := S32x2048x4) S1x512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4.size a ≤ S32x512x4.size a
  hwx0_1 : ∀ i : grid0.Coords, EltTy.bits .f32 = 32 ∨ (Rect.block (s := S32x512x4) S1x512x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg1) S1x512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x4 : Shape := ⟨3, ![32, 512, 4]⟩
abbrev S32x2048x4 : Shape := ⟨3, ![32, 2048, 4]⟩
abbrev S32 : Shape := ⟨1, ![32]⟩
abbrev S32x2048x1x4 : Shape := ⟨4, ![32, 2048, 1, 4]⟩
abbrev S32x1x512x4 : Shape := ⟨4, ![32, 1, 512, 4]⟩
abbrev S32x2048x1x1 : Shape := ⟨4, ![32, 2048, 1, 1]⟩
abbrev S32x2048x1 : Shape := ⟨3, ![32, 2048, 1]⟩
abbrev S_ : Shape := ⟨0, ![]⟩
abbrev S32x1x512x1 : Shape := ⟨4, ![32, 1, 512, 1]⟩
abbrev S32x1x512 : Shape := ⟨3, ![32, 1, 512]⟩
abbrev S32x2048x512 : Shape := ⟨3, ![32, 2048, 512]⟩
abbrev S32x2048 : Shape := ⟨2, ![32, 2048]⟩

abbrev nBuf : Space → Nat
  | .hbm => 173
  | .vmem => 0
  | .smem => 0
  | _ => 0

abbrev hbmTy0_0 (i : Nat) : BufTy := match i % 128 with
  | 0 => ⟨S32x512x4, .f32⟩
  | 1 => ⟨S32x2048x4, .f32⟩
  | 2 => ⟨S32, .i32⟩
  | 3 => ⟨S32x2048x1x4, .f32⟩
  | 4 => ⟨S32x1x512x4, .f32⟩
  | 5 => ⟨S32x2048x1x1, .f32⟩
  | 6 => ⟨S32x2048x1, .f32⟩
  | 7 => ⟨S32x2048x1x1, .f32⟩
  | 8 => ⟨S32x2048x1, .f32⟩
  | 9 => ⟨S32x2048x1, .f32⟩
  | 10 => ⟨S_, .f32⟩
  | 11 => ⟨S32x2048x1, .f32⟩
  | 12 => ⟨S32x2048x1, .f32⟩
  | 13 => ⟨S_, .f32⟩
  | 14 => ⟨S_, .f32⟩
  | 15 => ⟨S32x2048x1, .f32⟩
  | 16 => ⟨S32x2048x1, .f32⟩
  | 17 => ⟨S32x2048x1x1, .f32⟩
  | 18 => ⟨S32x2048x1, .f32⟩
  | 19 => ⟨S32x2048x1x1, .f32⟩
  | 20 => ⟨S32x2048x1, .f32⟩
  | 21 => ⟨S32x2048x1, .f32⟩
  | 22 => ⟨S_, .f32⟩
  | 23 => ⟨S32x2048x1, .f32⟩
  | 24 => ⟨S32x2048x1, .f32⟩
  | 25 => ⟨S_, .f32⟩
  | 26 => ⟨S_, .f32⟩
  | 27 => ⟨S32x2048x1, .f32⟩
  | 28 => ⟨S32x2048x1, .f32⟩
  | 29 => ⟨S32x1x512x1, .f32⟩
  | 30 => ⟨S32x1x512, .f32⟩
  | 31 => ⟨S32x1x512x1, .f32⟩
  | 32 => ⟨S32x1x512, .f32⟩
  | 33 => ⟨S32x1x512, .f32⟩
  | 34 => ⟨S_, .f32⟩
  | 35 => ⟨S32x1x512, .f32⟩
  | 36 => ⟨S32x1x512, .f32⟩
  | 37 => ⟨S_, .f32⟩
  | 38 => ⟨S_, .f32⟩
  | 39 => ⟨S32x1x512, .f32⟩
  | 40 => ⟨S32x1x512, .f32⟩
  | 41 => ⟨S32x1x512x1, .f32⟩
  | 42 => ⟨S32x1x512, .f32⟩
  | 43 => ⟨S32x1x512x1, .f32⟩
  | 44 => ⟨S32x1x512, .f32⟩
  | 45 => ⟨S32x1x512, .f32⟩
  | 46 => ⟨S_, .f32⟩
  | 47 => ⟨S32x1x512, .f32⟩
  | 48 => ⟨S32x1x512, .f32⟩
  | 49 => ⟨S_, .f32⟩
  | 50 => ⟨S_, .f32⟩
  | 51 => ⟨S32x1x512, .f32⟩
  | 52 => ⟨S32x1x512, .f32⟩
  | 53 => ⟨S32x2048x1, .f32⟩
  | 54 => ⟨S32x1x512, .f32⟩
  | 55 => ⟨S32x2048x1x1, .f32⟩
  | 56 => ⟨S32x2048x1, .f32⟩
  | 57 => ⟨S32x1x512x1, .f32⟩
  | 58 => ⟨S32x1x512, .f32⟩
  | 59 => ⟨S32x2048x512, .f32⟩
  | 60 => ⟨S32x2048x512, .f32⟩
  | 61 => ⟨S32x2048x512, .f32⟩
  | 62 => ⟨S32x2048x1x1, .f32⟩
  | 63 => ⟨S32x2048x1, .f32⟩
  | 64 => ⟨S32x1x512x1, .f32⟩
  | 65 => ⟨S32x1x512, .f32⟩
  | 66 => ⟨S32x2048x512, .f32⟩
  | 67 => ⟨S32x2048x512, .f32⟩
  | 68 => ⟨S32x2048x512, .f32⟩
  | 69 => ⟨S32x2048x1x1, .f32⟩
  | 70 => ⟨S32x2048x1, .f32⟩
  | 71 => ⟨S32x1x512x1, .f32⟩
  | 72 => ⟨S32x1x512, .f32⟩
  | 73 => ⟨S32x2048x512, .f32⟩
  | 74 => ⟨S32x2048x512, .f32⟩
  | 75 => ⟨S32x2048x512, .f32⟩
  | 76 => ⟨S32x2048x1x1, .f32⟩
  | 77 => ⟨S32x2048x1, .f32⟩
  | 78 => ⟨S32x1x512x1, .f32⟩
  | 79 => ⟨S32x1x512, .f32⟩
  | 80 => ⟨S32x2048x512, .f32⟩
  | 81 => ⟨S32x2048x512, .f32⟩
  | 82 => ⟨S32x2048x512, .f32⟩
  | 83 => ⟨S32x2048x512, .f32⟩
  | 84 => ⟨S_, .f32⟩
  | 85 => ⟨S32x2048x512, .f32⟩
  | 86 => ⟨S32x2048x512, .f32⟩
  | 87 => ⟨S_, .f32⟩
  | 88 => ⟨S_, .f32⟩
  | 89 => ⟨S32x2048x512, .f32⟩
  | 90 => ⟨S32x2048x512, .f32⟩
  | 91 => ⟨S32x2048x512, .f32⟩
  | 92 => ⟨S_, .f32⟩
  | 93 => ⟨S32x2048x512, .f32⟩
  | 94 => ⟨S32x2048x512, .f32⟩
  | 95 => ⟨S_, .f32⟩
  | 96 => ⟨S_, .f32⟩
  | 97 => ⟨S32x2048x512, .f32⟩
  | 98 => ⟨S32x2048x512, .f32⟩
  | 99 => ⟨S32x2048x512, .f32⟩
  | 100 => ⟨S32x2048x512, .f32⟩
  | 101 => ⟨S32x2048x512, .f32⟩
  | 102 => ⟨S32x2048x512, .f32⟩
  | 103 => ⟨S32x2048x512, .f32⟩
  | 104 => ⟨S32x2048x512, .f32⟩
  | 105 => ⟨S_, .f32⟩
  | 106 => ⟨S32x2048x512, .f32⟩
  | 107 => ⟨S32x2048x512, .f32⟩
  | 108 => ⟨S32x2048x1x1, .f32⟩
  | 109 => ⟨S32x2048x1, .f32⟩
  | 110 => ⟨S32x1x512x1, .f32⟩
  | 111 => ⟨S32x1x512, .f32⟩
  | 112 => ⟨S32x2048x512, .f32⟩
  | 113 => ⟨S32x2048x512, .f32⟩
  | 114 => ⟨S32x2048x512, .f32⟩
  | 115 => ⟨S32x2048x1x1, .f32⟩
  | 116 => ⟨S32x2048x1, .f32⟩
  | 117 => ⟨S32x1x512x1, .f32⟩
  | 118 => ⟨S32x1x512, .f32⟩
  | 119 => ⟨S32x2048x512, .f32⟩
  | 120 => ⟨S32x2048x512, .f32⟩
  | 121 => ⟨S32x2048x512, .f32⟩
  | 122 => ⟨S32x2048x1x1, .f32⟩
  | 123 => ⟨S32x2048x1, .f32⟩
  | 124 => ⟨S32x1x512x1, .f32⟩
  | 125 => ⟨S32x1x512, .f32⟩
  | 126 => ⟨S32x2048x512, .f32⟩
  | 127 => ⟨S32x2048x512, .f32⟩
  | _ => ⟨S32x512x4, .f32⟩

abbrev hbmTy0_1 (i : Nat) : BufTy := match i % 128 with
  | 0 => ⟨S32x2048x512, .f32⟩
  | 1 => ⟨S32x2048x1x1, .f32⟩
  | 2 => ⟨S32x2048x1, .f32⟩
  | 3 => ⟨S32x1x512x1, .f32⟩
  | 4 => ⟨S32x1x512, .f32⟩
  | 5 => ⟨S32x2048x512, .f32⟩
  | 6 => ⟨S32x2048x512, .f32⟩
  | 7 => ⟨S32x2048x512, .f32⟩
  | 8 => ⟨S32x2048x512, .f32⟩
  | 9 => ⟨S_, .f32⟩
  | 10 => ⟨S32x2048x512, .f32⟩
  | 11 => ⟨S32x2048x512, .f32⟩
  | 12 => ⟨S_, .f32⟩
  | 13 => ⟨S_, .f32⟩
  | 14 => ⟨S32x2048x512, .f32⟩
  | 15 => ⟨S32x2048x512, .f32⟩
  | 16 => ⟨S32x2048x512, .f32⟩
  | 17 => ⟨S_, .f32⟩
  | 18 => ⟨S32x2048x512, .f32⟩
  | 19 => ⟨S32x2048x512, .f32⟩
  | 20 => ⟨S_, .f32⟩
  | 21 => ⟨S_, .f32⟩
  | 22 => ⟨S32x2048x512, .f32⟩
  | 23 => ⟨S32x2048x512, .f32⟩
  | 24 => ⟨S32x2048x512, .f32⟩
  | 25 => ⟨S32x2048x512, .f32⟩
  | 26 => ⟨S32x2048x512, .f32⟩
  | 27 => ⟨S32x2048x512, .f32⟩
  | 28 => ⟨S_, .f32⟩
  | 29 => ⟨S_, .f32⟩
  | 30 => ⟨S_, .f32⟩
  | 31 => ⟨S32x2048x512, .f32⟩
  | 32 => ⟨S32x2048x512, .f32⟩
  | 33 => ⟨S_, .f32⟩
  | 34 => ⟨S32x2048x512, .f32⟩
  | 35 => ⟨S32x2048x512, .f32⟩
  | 36 => ⟨S_, .f32⟩
  | 37 => ⟨S32x2048, .f32⟩
  | 38 => ⟨S_, .f32⟩
  | 39 => ⟨S32x2048, .f32⟩
  | 40 => ⟨S32x2048, .f32⟩
  | 41 => ⟨S_, .f32⟩
  | 42 => ⟨S_, .f32⟩
  | 43 => ⟨S_, .f32⟩
  | 44 => ⟨S_, .f32⟩
  | _ => ⟨S32x512x4, .f32⟩

abbrev hbmTy (i : Nat) : BufTy := match i / 128 with
  | 0 => hbmTy0_0 i
  | 1 => hbmTy0_1 i
  | _ => ⟨S32x512x4, .f32⟩

abbrev bufTy : (tb : Table) → Fin (tcTables nBuf tb) → BufTy
  | .hbm, ⟨i, _⟩ => hbmTy i
  | _, _ => ⟨S32x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_call3_v0 : Ref sig .tc := ⟨.hbm, 50, rfl⟩
abbrev main_call3_v1 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_7 : Ref sig .tc := ⟨.hbm, 84, rfl⟩
abbrev main_v65 : Ref sig .tc := ⟨.hbm, 85, rfl⟩
abbrev main_v66 : Ref sig .tc := ⟨.hbm, 86, rfl⟩
abbrev main_cst_8 : Ref sig .tc := ⟨.hbm, 87, rfl⟩
abbrev main_call4_v0 : Ref sig .tc := ⟨.hbm, 88, rfl⟩
abbrev main_call4_v1 : Ref sig .tc := ⟨.hbm, 89, rfl⟩
abbrev main_v67 : Ref sig .tc := ⟨.hbm, 90, rfl⟩
abbrev main_v68 : Ref sig .tc := ⟨.hbm, 91, rfl⟩
abbrev main_cst_9 : Ref sig .tc := ⟨.hbm, 92, rfl⟩
abbrev main_v69 : Ref sig .tc := ⟨.hbm, 93, rfl⟩
abbrev main_v70 : Ref sig .tc := ⟨.hbm, 94, rfl⟩
abbrev main_cst_10 : Ref sig .tc := ⟨.hbm, 95, rfl⟩
abbrev main_call5_v0 : Ref sig .tc := ⟨.hbm, 96, rfl⟩
abbrev main_call5_v1 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_11 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_12 : Ref sig .tc := ⟨.hbm, 137, rfl⟩
abbrev main_v109 : Ref sig .tc := ⟨.hbm, 138, rfl⟩
abbrev main_v110 : Ref sig .tc := ⟨.hbm, 139, rfl⟩
abbrev main_cst_13 : Ref sig .tc := ⟨.hbm, 140, rfl⟩
abbrev main_call6_v0 : Ref sig .tc := ⟨.hbm, 141, rfl⟩
abbrev main_call6_v1 : Ref sig .tc := ⟨.hbm, 142, rfl⟩
abbrev main_v111 : Ref sig .tc := ⟨.hbm, 143, rfl⟩
abbrev main_v112 : Ref sig .tc := ⟨.hbm, 144, rfl⟩
abbrev main_cst_14 : Ref sig .tc := ⟨.hbm, 145, rfl⟩
abbrev main_v113 : Ref sig .tc := ⟨.hbm, 146, rfl⟩
abbrev main_v114 : Ref sig .tc := ⟨.hbm, 147, rfl⟩
abbrev main_cst_15 : Ref sig .tc := ⟨.hbm, 148, rfl⟩
abbrev main_call7_v0 : Ref sig .tc := ⟨.hbm, 149, rfl⟩
abbrev main_call7_v1 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_16 : Ref sig .tc := ⟨.hbm, 156, rfl⟩
abbrev main_cst_17 : Ref sig .tc := ⟨.hbm, 157, rfl⟩
abbrev main_call8_v0 : Ref sig .tc := ⟨.hbm, 158, rfl⟩
abbrev main_call8_v1 : Ref sig .tc := ⟨.hbm, 159, rfl⟩
abbrev main_call8_v2 : Ref sig .tc := ⟨.hbm, 160, rfl⟩
abbrev main_call8_v3 : Ref sig .tc := ⟨.hbm, 161, rfl⟩
abbrev main_call8_v4 : Ref sig .tc := ⟨.hbm, 162, rfl⟩
abbrev main_v120 : Ref sig .tc := ⟨.hbm, 163, rfl⟩
abbrev main_cst_18 : Ref sig .tc := ⟨.hbm, 164, rfl⟩
abbrev main_v121 : Ref sig .tc := ⟨.hbm, 165, rfl⟩
abbrev main_cst_19 : Ref sig .tc := ⟨.hbm, 166, rfl⟩
abbrev main_v122 : Ref sig .tc := ⟨.hbm, 167, rfl⟩
abbrev main_v123 : Ref sig .tc := ⟨.hbm, 168, rfl⟩
abbrev main_cst_20 : Ref sig .tc := ⟨.hbm, 169, rfl⟩
abbrev main_v124 : Ref sig .tc := ⟨.hbm, 170, rfl⟩
abbrev main_cst_21 : Ref sig .tc := ⟨.hbm, 171, rfl⟩
abbrev main_v125 : Ref sig .tc := ⟨.hbm, 172, rfl⟩

abbrev nD : Nat := 1
abbrev τ : Topo := Topo.v7x

variable {F : FTy → Type} [FloatOps F]

class Facts₀ : Prop where
  bcast_S32x2048x4_S32x2048x1x4_0_1_3 : S32x2048x4.BroadcastsInDim S32x2048x1x4 (![0, 1, 3] : Fin 3 → Fin S32x2048x1x4.rank)
  bcast_S32x512x4_S32x1x512x4_0_2_3 : S32x512x4.BroadcastsInDim S32x1x512x4 (![0, 2, 3] : Fin 3 → Fin S32x1x512x4.rank)
  slices_S32x2048x1x4_S32x2048x1x1_0_0_0_2 : S32x2048x1x4.Slices ![0, 0, 0, 2] S32x2048x1x1
  shapeCasts_S32x2048x1x1_S32x2048x1 : S32x2048x1x1.ShapeCasts S32x2048x1
  slices_S32x2048x1x4_S32x2048x1x1_0_0_0_0 : S32x2048x1x4.Slices ![0, 0, 0, 0] S32x2048x1x1
  bcast_S_S32x2048x1 : S_.BroadcastsInDim S32x2048x1 (![] : Fin 0 → Fin S32x2048x1.rank)
  slices_S32x2048x1x4_S32x2048x1x1_0_0_0_3 : S32x2048x1x4.Slices ![0, 0, 0, 3] S32x2048x1x1
  slices_S32x2048x1x4_S32x2048x1x1_0_0_0_1 : S32x2048x1x4.Slices ![0, 0, 0, 1] S32x2048x1x1
  slices_S32x1x512x4_S32x1x512x1_0_0_0_2 : S32x1x512x4.Slices ![0, 0, 0, 2] S32x1x512x1
  shapeCasts_S32x1x512x1_S32x1x512 : S32x1x512x1.ShapeCasts S32x1x512
  slices_S32x1x512x4_S32x1x512x1_0_0_0_0 : S32x1x512x4.Slices ![0, 0, 0, 0] S32x1x512x1
  bcast_S_S32x1x512 : S_.BroadcastsInDim S32x1x512 (![] : Fin 0 → Fin S32x1x512.rank)
  slices_S32x1x512x4_S32x1x512x1_0_0_0_3 : S32x1x512x4.Slices ![0, 0, 0, 3] S32x1x512x1
  slices_S32x1x512x4_S32x1x512x1_0_0_0_1 : S32x1x512x4.Slices ![0, 0, 0, 1] S32x1x512x1
  bcast_S32x2048x1_S32x2048x512_0_1_2 : S32x2048x1.BroadcastsInDim S32x2048x512 (![0, 1, 2] : Fin 3 → Fin S32x2048x512.rank)
  bcast_S32x1x512_S32x2048x512_0_1_2 : S32x1x512.BroadcastsInDim S32x2048x512 (![0, 1, 2] : Fin 3 → Fin S32x2048x512.rank)
  bcast_S_S32x2048x512 : S_.BroadcastsInDim S32x2048x512 (![] : Fin 0 → Fin S32x2048x512.rank)
  reducesTo_S32x2048x512_S32x2048_d2 : S32x2048x512.ReducesTo [2] S32x2048
  h_S_ : 0 < S_.numel
  bcast_S_S32x2048 : S_.BroadcastsInDim S32x2048 (![] : Fin 0 → Fin S32x2048.rank)
  reducesTo_S32x2048_S_d0_1 : S32x2048.ReducesTo [0, 1] S_

variable [Facts₀]

class Facts : Prop extends Facts₀ where

variable [Facts]
-- ==== Proof.Giou.lean ====
/-
  The mathematics both programs compute, stated once over the extended reals.

  For a predicted box p = (p0, p1, p2, p3) and a target box t = (t0, t1, t2, t3) (corner coordinates), with
  side lo hi = max (hi - lo + 1) 0 the clipped side length:
    inter = side (max p0 t0) (min p2 t2) * side (max p1 t1) (min p3 t3)
    union = side p0 p2 * side p1 p3 + side t0 t2 * side t1 t3 - inter
    outer = side (min p0 t0) (max p2 t2) * side (min p1 t1) (max p3 t3)
    giou  = min (max (max (inter / union) eps - (outer - union) / outer) (-1)) 1
  The loss of predicted box (b, p) is 1 minus the maximum of giou over the 512 target boxes of batch element b, and
  the result is the sum of the losses over all 32 * 2048 predicted boxes, divided by 32.

  The last part of this file is the one re-indexing fact the comparison needs: a sum over 128 tiles of 512
  rows each, tile t holding rows (t % 4) * 512 .. (t % 4) * 512 + 511 of batch element t / 4, is the sum over all
  (batch element, row) pairs. Only commutativity and associativity of addition are used, which hold on the
  extended reals without any finiteness assumption.
-/
import Idealize.ShloMosaic.PureOps.Ideal
import Idealize.ShloMosaic.Lib.ValueIdx

noncomputable section

open Idealize.ShloMosaic Idealize.ShloMosaic.ValueIdx
open scoped BigOperators

namespace GiouLoss

/-- The float constants of both programs, each the value of its f32 word. -/
abbrev one : EReal := Ideal.ofBits .f32 0x3F800000#32
abbrev zero : EReal := Ideal.ofBits .f32 0x00000000#32
abbrev negOne : EReal := Ideal.ofBits .f32 0xBF800000#32
abbrev eps : EReal := Ideal.ofBits .f32 0x358637BD#32
abbrev negInf : EReal := Ideal.ofBits .f32 0xFF800000#32
abbrev thirtyTwo : EReal := Ideal.ofBits .f32 0x42000000#32

/-- The clipped side length of a box along one axis. -/
def side (lo hi : EReal) : EReal := max (hi - lo + one) zero

/-- The clipped generalized intersection over union of a predicted box and a target box. -/
def giou (p0 p1 p2 p3 t0 t1 t2 t3 : EReal) : EReal :=
  min (max
    (max (Ideal.div (side (max p0 t0) (min p2 t2) * side (max p1 t1) (min p3 t3))
        (side p0 p2 * side p1 p3 + side t0 t2 * side t1 t3 - side (max p0 t0) (min p2 t2) * side (max p1 t1) (min p3 t3))) eps
      - Ideal.div
          (side (min p0 t0) (max p2 t2) * side (min p1 t1) (max p3 t3)
            - (side p0 p2 * side p1 p3 + side t0 t2 * side t1 t3 - side (max p0 t0) (min p2 t2) * side (max p1 t1) (min p3 t3)))
          (side (min p0 t0) (max p2 t2) * side (min p1 t1) (max p3 t3)))
    negOne) one

abbrev PredIdx := (⟨3, ![32, 2048, 4]⟩ : Shape).Idx
abbrev TgtIdx := (⟨3, ![32, 512, 4]⟩ : Shape).Idx
abbrev RowIdx := (⟨2, ![32, 2048]⟩ : Shape).Idx

/-- giou of predicted box (b, p) against target box (b, g). -/
def pair (P : PredIdx → EReal) (T : TgtIdx → EReal) (b : Fin 32) (p : Fin 2048) (g : Fin 512) : EReal :=
  giou (P (ix3 b p 0)) (P (ix3 b p 1)) (P (ix3 b p 2)) (P (ix3 b p 3))
    (T (ix3 b g 0)) (T (ix3 b g 1)) (T (ix3 b g 2)) (T (ix3 b g 3))

/-- The loss of predicted box (b, p): one minus its best giou over the batch element's targets. -/
def rowLoss (P : PredIdx → EReal) (T : TgtIdx → EReal) (b : Fin 32) (p : Fin 2048) : EReal :=
  one - Finset.univ.fold max negInf (fun g : Fin 512 => pair P T b p g)

/-- The mean over the batch of the summed losses. -/
def total (P : PredIdx → EReal) (T : TgtIdx → EReal) : EReal :=
  Ideal.div (zero + ∑ i : RowIdx, rowLoss P T (i 0) (i 1)) thirtyTwo

/-- The batch element and the row of row r of tile t. -/
def tileBatch (t : Fin 128) : Fin 32 := ⟨t.val / 4, by have := t.isLt; omega⟩
def tileRow (t : Fin 128) (r : Fin 512) : Fin 2048 := ⟨(t.val % 4) * 512 + r.val, by have := r.isLt; omega⟩

/-- What tile t contributes: the losses of its 512 rows. -/
def tileLoss (P : PredIdx → EReal) (T : TgtIdx → EReal) (t : Fin 128) : EReal :=
  ∑ r : Fin 512, rowLoss P T (tileBatch t) (tileRow t r)

theorem tile_bijective :
    Function.Bijective (fun x : Fin 128 × Fin 512 => ((tileBatch x.1, tileRow x.1 x.2) : Fin 32 × Fin 2048)) := by
  rw [Fintype.bijective_iff_injective_and_card]
  refine ⟨?_, by simp⟩
  rintro ⟨t, r⟩ ⟨t', r'⟩ h
  have h1 : t.val / 4 = t'.val / 4 := congrArg (fun x : Fin 32 × Fin 2048 => x.1.val) h
  have h2 : (t.val % 4) * 512 + r.val = (t'.val % 4) * 512 + r'.val := congrArg (fun x : Fin 32 × Fin 2048 => x.2.val) h
  have hr := r.isLt; have hr' := r'.isLt
  have ht : t.val = t'.val := by omega
  have hrr : r.val = r'.val := by omega
  exact Prod.ext (Fin.ext ht) (Fin.ext hrr)

/-- The tiles' contributions add up to the sum over all (batch element, row) pairs. -/
theorem sum_tiles (P : PredIdx → EReal) (T : TgtIdx → EReal) :
    ∑ t : Fin 128, tileLoss P T t = ∑ i : RowIdx, rowLoss P T (i 0) (i 1) := by
  rw [sum_idx2 (fun i : RowIdx => rowLoss P T (i 0) (i 1))]
  unfold tileLoss
  rw [← Fintype.sum_prod_type', ← Fintype.sum_prod_type']
  exact Fintype.sum_bijective _ tile_bijective _ _ (fun x => rfl)

/-- A running sum started at `zero` and extended tile by tile is `zero` plus the sum of the tiles so far. -/
theorem running_sum (s : Fin 128 → EReal) (acc : (n : ℕ) → n < 128 → EReal)
    (h0 : ∀ h, acc 0 h = zero + s ⟨0, h⟩)
    (hs : ∀ n (h : n + 1 < 128), acc (n + 1) h = acc n (Nat.lt_of_succ_lt h) + s ⟨n + 1, h⟩) :
    ∀ n (h : n < 128), acc n h = zero + ∑ t : Fin (n + 1), s ⟨t.val, by have := t.isLt; omega⟩
  | 0, h => by rw [h0, Fin.sum_univ_one]; rfl
  | n + 1, h => by
    rw [hs n h, running_sum s acc h0 hs n (Nat.lt_of_succ_lt h), add_assoc]
    congr 1
    exact (Fin.sum_univ_castSucc (fun t : Fin (n + 2) => s ⟨t.val, by have := t.isLt; omega⟩)).symm

end GiouLoss

end
-- ==== Proof.KernelTile.lean ====
/-
  What one grid point of the kernel adds to the accumulator, read at the ideal values.

  The body's stored value is (previous accumulator) + sum over the tile's 512 rows of (1 - max over the 512 target
  boxes of the clipped giou of the row's predicted box and the target box). The predicted boxes are the rows of the
  first block, the target boxes the rows of the second; the body reads a predicted coordinate by slicing column k
  and broadcasting it along the lanes, and a target coordinate by transposing the block, slicing row k and
  broadcasting it down the sublanes. Each layout operation is read at explicit coordinates, each reduction as a fold
  or a sum over its one reduced axis, and what remains is the scalar formula of `GiouLoss.giou`.
-/
import proofs.«104870_j16071767622181_1_alg».proof.Proof.Gen.KernelIdeal.Skeleton
import proofs.«104870_j16071767622181_1_alg».proof.Proof.Giou
import Idealize.ShloMosaic.Lib.Pipeline.Value
import Idealize.ShloMosaic.Lib.ValueIdx
import Idealize.ShloMosaic.PureOps.Ideal.Laws

noncomputable section

open Idealize.ShloMosaic Idealize.ShloMosaic.ValueIdx GiouLoss
open scoped BigOperators

namespace Cert.KernelIdeal.Tile

open Cert.KernelIdeal Cert.KernelIdeal.Gen

/-! ## The body's value as one function of the two blocks and the accumulator (any float instance) -/

/-- The value the body stores at a grid point: its payloads composed, as a function of the predicted-box block, the
    target-box block and the accumulator's contents before the point. -/
def step {F : FTy → Type} [FloatOps F] (x0 x1 : Vec F S1x512x4 .f32) (acc : Vec F S1x1 .f32) : Vec F S1x1 .f32 :=
  k0_pay1
    (k0_pay17 (k0_pay5 x0) (k0_pay6 x0) (k0_pay7 x0) (k0_pay9 x1) (k0_pay10 x1) (k0_pay11 x1) (k0_pay12 x0) (k0_pay13 x1) (k0_pay14 x0) (k0_pay15 x1))
    (k0_pay18 (k0_pay5 x0) (k0_pay6 x0) (k0_pay7 x0) (k0_pay9 x1) (k0_pay10 x1) (k0_pay11 x1) (k0_pay12 x0) (k0_pay13 x1) (k0_pay14 x0) (k0_pay15 x1))
    (k0_pay19 (k0_pay4 x0) (k0_pay5 x0) (k0_pay6 x0) (k0_pay7 x0) (k0_pay8 x1) (k0_pay9 x1) (k0_pay10 x1) (k0_pay11 x1))
    acc

/-! ## Layout operations at coordinates -/

section Layout
variable {α : Type}

/-- A per-row column broadcast along the lanes reads the row's entry. -/
theorem bcastRow (v : S1x512x1.Idx → α) (h : S1x512x1.Broadcasts S1x512x512) (r g : Fin 512) :
    broadcastTo S1x512x512 v h (ix3 0 r g) = v (ix3 0 r 0) :=
  broadcastTo_apply v h _ _ (fun a => match a with | ⟨0, _⟩ => rfl | ⟨1, _⟩ => rfl | ⟨2, _⟩ => rfl)

/-- A per-lane row broadcast down the sublanes reads the lane's entry. -/
theorem bcastCol (v : S1x1x512.Idx → α) (h : S1x1x512.Broadcasts S1x512x512) (r g : Fin 512) :
    broadcastTo S1x512x512 v h (ix3 0 r g) = v (ix3 0 0 g) :=
  broadcastTo_apply v h _ _ (fun a => match a with | ⟨0, _⟩ => rfl | ⟨1, _⟩ => rfl | ⟨2, _⟩ => rfl)

/-- Column k of a block of boxes, at row r. -/
theorem sliceCol0 (x : S1x512x4.Idx → α) (h : S1x512x4.Slices ![0, 0, 0] S1x512x1) (r : Fin 512) :
    extractStridedSlice S1x512x1 ![0, 0, 0] x h (ix3 0 r 0) = x (ix3 0 r 0) :=
  extractStridedSlice_apply _ x h _ _ (fun a => match a with
    | ⟨0, _⟩ => rfl | ⟨1, _⟩ => by show (r : ℕ) = 0 + (r : ℕ); omega | ⟨2, _⟩ => rfl)
theorem sliceCol1 (x : S1x512x4.Idx → α) (h : S1x512x4.Slices ![0, 0, 1] S1x512x1) (r : Fin 512) :
    extractStridedSlice S1x512x1 ![0, 0, 1] x h (ix3 0 r 0) = x (ix3 0 r 1) :=
  extractStridedSlice_apply _ x h _ _ (fun a => match a with
    | ⟨0, _⟩ => rfl | ⟨1, _⟩ => by show (r : ℕ) = 0 + (r : ℕ); omega | ⟨2, _⟩ => rfl)
theorem sliceCol2 (x : S1x512x4.Idx → α) (h : S1x512x4.Slices ![0, 0, 2] S1x512x1) (r : Fin 512) :
    extractStridedSlice S1x512x1 ![0, 0, 2] x h (ix3 0 r 0) = x (ix3 0 r 2) :=
  extractStridedSlice_apply _ x h _ _ (fun a => match a with
    | ⟨0, _⟩ => rfl | ⟨1, _⟩ => by show (r : ℕ) = 0 + (r : ℕ); omega | ⟨2, _⟩ => rfl)
theorem sliceCol3 (x : S1x512x4.Idx → α) (h : S1x512x4.Slices ![0, 0, 3] S1x512x1) (r : Fin 512) :
    extractStridedSlice S1x512x1 ![0, 0, 3] x h (ix3 0 r 0) = x (ix3 0 r 3) :=
  extractStridedSlice_apply _ x h _ _ (fun a => match a with
    | ⟨0, _⟩ => rfl | ⟨1, _⟩ => by show (r : ℕ) = 0 + (r : ℕ); omega | ⟨2, _⟩ => rfl)

/-- Row k of a transposed block, at lane g. -/
theorem sliceRow0 (x : S1x4x512.Idx → α) (h : S1x4x512.Slices ![0, 0, 0] S1x1x512) (g : Fin 512) :
    extractStridedSlice S1x1x512 ![0, 0, 0] x h (ix3 0 0 g) = x (ix3 0 0 g) :=
  extractStridedSlice_apply _ x h _ _ (fun a => match a with
    | ⟨0, _⟩ => rfl | ⟨1, _⟩ => rfl | ⟨2, _⟩ => by show (g : ℕ) = 0 + (g : ℕ); omega)
theorem sliceRow1 (x : S1x4x512.Idx → α) (h : S1x4x512.Slices ![0, 1, 0] S1x1x512) (g : Fin 512) :
    extractStridedSlice S1x1x512 ![0, 1, 0] x h (ix3 0 0 g) = x (ix3 0 1 g) :=
  extractStridedSlice_apply _ x h _ _ (fun a => match a with
    | ⟨0, _⟩ => rfl | ⟨1, _⟩ => rfl | ⟨2, _⟩ => by show (g : ℕ) = 0 + (g : ℕ); omega)
theorem sliceRow2 (x : S1x4x512.Idx → α) (h : S1x4x512.Slices ![0, 2, 0] S1x1x512) (g : Fin 512) :
    extractStridedSlice S1x1x512 ![0, 2, 0] x h (ix3 0 0 g) = x (ix3 0 2 g) :=
  extractStridedSlice_apply _ x h _ _ (fun a => match a with
    | ⟨0, _⟩ => rfl | ⟨1, _⟩ => rfl | ⟨2, _⟩ => by show (g : ℕ) = 0 + (g : ℕ); omega)
theorem sliceRow3 (x : S1x4x512.Idx → α) (h : S1x4x512.Slices ![0, 3, 0] S1x1x512) (g : Fin 512) :
    extractStridedSlice S1x1x512 ![0, 3, 0] x h (ix3 0 0 g) = x (ix3 0 3 g) :=
  extractStridedSlice_apply _ x h _ _ (fun a => match a with
    | ⟨0, _⟩ => rfl | ⟨1, _⟩ => rfl | ⟨2, _⟩ => by show (g : ℕ) = 0 + (g : ℕ); omega)

/-- The transposed block at (k, g) is the block at (g, k). -/
theorem transposed (x : S1x512x4.Idx → α) (h : S1x512x4.Transposes [0, 2, 1] S1x4x512) (k : Fin 4) (g : Fin 512) :
    transpose S1x4x512 [0, 2, 1] x h (ix3 0 k g) = x (ix3 0 g k) :=
  transpose_apply _ x h _ _ (fun b => match b with | ⟨0, _⟩ => rfl | ⟨1, _⟩ => rfl | ⟨2, _⟩ => rfl)

end Layout

/-! ## The two reductions over one axis -/

/-- The maximum along the lanes, at row r: the fold of max from minus infinity over the lane's entries. -/
theorem laneMax (w : FVec Ideal S1x512x512 .f32) (h : S1x512x512.Reduces [2] S1x512)
    (hacc : (0xFF800000#32 : BitVec 32) = 0xFF800000#32) (r : Fin 512) :
    multiReduction .maximumf [2] S1x512 w 0xFF800000#32 h (.inl rfl) hacc (ix2 0 r)
      = Finset.univ.fold max negInf (fun g : Fin 512 => w (ix3 0 r g)) := by
  refine (Ideal.multiReduction_maximumf_single w 0xFF800000#32 h (.inl rfl) hacc (ix2 0 r)).trans ?_
  refine Finset.fold_congr (fun g _ => ?_)
  show w (h.lift (ix2 0 r) g) = w (ix3 0 r g)
  refine congrArg w (funext fun a => ?_)
  match a with
  | ⟨0, _⟩ => exact Fin.ext rfl
  | ⟨1, _⟩ => exact Fin.ext rfl
  | ⟨2, _⟩ => exact Fin.ext rfl

/-- The sum down the rows: the sum over the 512 rows' entries. -/
theorem rowSum (u : FVec Ideal S1x512 .f32) (h : S1x512.Reduces [1] S1)
    (hacc : (0x00000000#32 : BitVec 32) = 0x00000000#32) :
    multiReduction .add [1] S1 u 0x00000000#32 h (.inl rfl) hacc (ix1 0) = ∑ r : Fin 512, u (ix2 0 r) := by
  refine (Ideal.multiReduction_add_single u 0x00000000#32 h (.inl rfl) hacc (ix1 0)).trans ?_
  refine Finset.sum_congr rfl (fun r _ => ?_)
  refine congrArg u (funext fun a => ?_)
  match a with
  | ⟨0, _⟩ => exact Fin.ext rfl
  | ⟨1, _⟩ => exact Fin.ext rfl

/-! ## The payloads at coordinates -/

/-- Coordinate k of the predicted box of row r. -/
theorem pred0_at (x0 : Vec Ideal S1x512x4 .f32) (r : Fin 512) : k0_pay4 x0 (ix3 0 r 0) = x0 (ix3 0 r 0) := by
  unfold k0_pay4; exact sliceCol0 _ _ r
theorem pred1_at (x0 : Vec Ideal S1x512x4 .f32) (r : Fin 512) : k0_pay5 x0 (ix3 0 r 0) = x0 (ix3 0 r 1) := by
  unfold k0_pay5; exact sliceCol1 _ _ r
theorem pred2_at (x0 : Vec Ideal S1x512x4 .f32) (r : Fin 512) : k0_pay6 x0 (ix3 0 r 0) = x0 (ix3 0 r 2) := by
  unfold k0_pay6; exact sliceCol2 _ _ r
theorem pred3_at (x0 : Vec Ideal S1x512x4 .f32) (r : Fin 512) : k0_pay7 x0 (ix3 0 r 0) = x0 (ix3 0 r 3) := by
  unfold k0_pay7; exact sliceCol3 _ _ r

/-- Coordinate k of the target box of lane g. -/
theorem tgt0_at (x1 : Vec Ideal S1x512x4 .f32) (g : Fin 512) : k0_pay8 x1 (ix3 0 0 g) = x1 (ix3 0 g 0) := by
  unfold k0_pay8 k0_pay3; exact (sliceRow0 _ _ g).trans (transposed x1 _ 0 g)
theorem tgt1_at (x1 : Vec Ideal S1x512x4 .f32) (g : Fin 512) : k0_pay9 x1 (ix3 0 0 g) = x1 (ix3 0 g 1) := by
  unfold k0_pay9 k0_pay3; exact (sliceRow1 _ _ g).trans (transposed x1 _ 1 g)
theorem tgt2_at (x1 : Vec Ideal S1x512x4 .f32) (g : Fin 512) : k0_pay10 x1 (ix3 0 0 g) = x1 (ix3 0 g 2) := by
  unfold k0_pay10 k0_pay3; exact (sliceRow2 _ _ g).trans (transposed x1 _ 2 g)
theorem tgt3_at (x1 : Vec Ideal S1x512x4 .f32) (g : Fin 512) : k0_pay11 x1 (ix3 0 0 g) = x1 (ix3 0 g 3) := by
  unfold k0_pay11 k0_pay3; exact (sliceRow3 _ _ g).trans (transposed x1 _ 3 g)

/-- The area of the predicted box of row r. -/
theorem predArea_at (x0 : Vec Ideal S1x512x4 .f32) (r : Fin 512) :
    k0_pay12 x0 (ix3 0 r 0)
      = side (x0 (ix3 0 r 0)) (x0 (ix3 0 r 2)) * side (x0 (ix3 0 r 1)) (x0 (ix3 0 r 3)) := by
  unfold k0_pay12
  simp only [mulf_apply, maximumf_apply, addf_apply, subf_apply, broadcast_apply, pred0_at, pred1_at, pred2_at, pred3_at]
  rfl

/-- The area of the target box of lane g. -/
theorem tgtArea_at (x1 : Vec Ideal S1x512x4 .f32) (g : Fin 512) :
    k0_pay13 x1 (ix3 0 0 g)
      = side (x1 (ix3 0 g 0)) (x1 (ix3 0 g 2)) * side (x1 (ix3 0 g 1)) (x1 (ix3 0 g 3)) := by
  unfold k0_pay13
  simp only [mulf_apply, maximumf_apply, addf_apply, subf_apply, broadcast_apply, tgt0_at, tgt1_at, tgt2_at, tgt3_at]
  rfl

theorem predLeft_at (x0 : Vec Ideal S1x512x4 .f32) (r g : Fin 512) : k0_pay14 x0 (ix3 0 r g) = x0 (ix3 0 r 0) := by
  unfold k0_pay14; exact (bcastRow _ _ r g).trans (pred0_at x0 r)
theorem tgtLeft_at (x1 : Vec Ideal S1x512x4 .f32) (r g : Fin 512) : k0_pay15 x1 (ix3 0 r g) = x1 (ix3 0 g 0) := by
  unfold k0_pay15; exact (bcastCol _ _ r g).trans (tgt0_at x1 g)

/-- The intersection's area, over the coordinate vectors the body passes. -/
theorem inter_at (v9 v10 v11 : FVec Ideal S1x512x1 .f32) (v13 v14 v15 : FVec Ideal S1x1x512 .f32)
    (v38 v39 : FVec Ideal S1x512x512 .f32) (r g : Fin 512) :
    k0_pay16 v9 v10 v11 v13 v14 v15 v38 v39 (ix3 0 r g)
      = side (max (v38 (ix3 0 r g)) (v39 (ix3 0 r g))) (min (v10 (ix3 0 r 0)) (v14 (ix3 0 0 g)))
        * side (max (v9 (ix3 0 r 0)) (v13 (ix3 0 0 g))) (min (v11 (ix3 0 r 0)) (v15 (ix3 0 0 g))) := by
  unfold k0_pay16
  simp only [mulf_apply, maximumf_apply, minimumf_apply, addf_apply, subf_apply, broadcast_apply, bcastRow, bcastCol]
  rfl

/-- The union's area. -/
theorem union_at (v9 v10 v11 : FVec Ideal S1x512x1 .f32) (v13 v14 v15 : FVec Ideal S1x1x512 .f32)
    (v26 : FVec Ideal S1x512x1 .f32) (v37 : FVec Ideal S1x1x512 .f32) (v38 v39 : FVec Ideal S1x512x512 .f32) (r g : Fin 512) :
    k0_pay17 v9 v10 v11 v13 v14 v15 v26 v37 v38 v39 (ix3 0 r g)
      = v26 (ix3 0 r 0) + v37 (ix3 0 0 g) - k0_pay16 v9 v10 v11 v13 v14 v15 v38 v39 (ix3 0 r g) := by
  unfold k0_pay17
  simp only [addf_apply, subf_apply, bcastRow, bcastCol]

/-- The intersection over the union, floored at eps. -/
theorem iou_at (v9 v10 v11 : FVec Ideal S1x512x1 .f32) (v13 v14 v15 : FVec Ideal S1x1x512 .f32)
    (v26 : FVec Ideal S1x512x1 .f32) (v37 : FVec Ideal S1x1x512 .f32) (v38 v39 : FVec Ideal S1x512x512 .f32) (r g : Fin 512) :
    k0_pay18 v9 v10 v11 v13 v14 v15 v26 v37 v38 v39 (ix3 0 r g)
      = max (Ideal.div (k0_pay16 v9 v10 v11 v13 v14 v15 v38 v39 (ix3 0 r g))
          (k0_pay17 v9 v10 v11 v13 v14 v15 v26 v37 v38 v39 (ix3 0 r g))) eps := by
  unfold k0_pay18
  simp only [maximumf_apply, divf_apply, broadcast_apply]
  rfl

/-- The enclosing box's area. -/
theorem outer_at (v8 v9 v10 v11 : FVec Ideal S1x512x1 .f32) (v12 v13 v14 v15 : FVec Ideal S1x1x512 .f32) (r g : Fin 512) :
    k0_pay19 v8 v9 v10 v11 v12 v13 v14 v15 (ix3 0 r g)
      = side (min (v8 (ix3 0 r 0)) (v12 (ix3 0 0 g))) (max (v10 (ix3 0 r 0)) (v14 (ix3 0 0 g)))
        * side (min (v9 (ix3 0 r 0)) (v13 (ix3 0 0 g))) (max (v11 (ix3 0 r 0)) (v15 (ix3 0 0 g))) := by
  unfold k0_pay19
  simp only [mulf_apply, maximumf_apply, minimumf_apply, addf_apply, subf_apply, broadcast_apply, bcastRow, bcastCol]
  rfl

/-! ## The stored value at its one index -/

/-- The clipped giou the body computes at row r and lane g of a tile is `GiouLoss.giou` of the row's predicted box and
    the lane's target box. -/
theorem step_apply (x0 x1 : Vec Ideal S1x512x4 .f32) (acc : Vec Ideal S1x1 .f32) :
    step (F := Ideal) x0 x1 acc (ix2 0 0)
      = acc (ix2 0 0) + ∑ r : Fin 512, (one - Finset.univ.fold max negInf (fun g : Fin 512 =>
          giou (x0 (ix3 0 r 0)) (x0 (ix3 0 r 1)) (x0 (ix3 0 r 2)) (x0 (ix3 0 r 3))
            (x1 (ix3 0 g 0)) (x1 (ix3 0 g 1)) (x1 (ix3 0 g 2)) (x1 (ix3 0 g 3)))) := by
  unfold step k0_pay1
  rw [addf_apply, shapeCast_self]
  refine congrArg (fun z => acc (ix2 0 0) + z) ?_
  refine (shapeCast_addUnit_apply ![1] _ _ (ix2 0 0)).trans ?_
  rw [show (fun a : Fin 1 => (ix2 (0 : Fin 1) (0 : Fin 1)) a.succ) = ix1 0 from funext fun a => by
    match a with | ⟨0, _⟩ => rfl]
  refine (rowSum _ _ _).trans ?_
  refine Finset.sum_congr rfl (fun r _ => ?_)
  refine (subf_apply _ _ _).trans ?_
  refine congrArg (fun z => one - z) ?_
  refine (laneMax _ _ _ r).trans ?_
  refine Finset.fold_congr (fun g _ => ?_)
  simp only [minimumf_apply, maximumf_apply, subf_apply, divf_apply, broadcast_apply, iou_at, union_at, inter_at, outer_at,
    predArea_at, tgtArea_at, predLeft_at, tgtLeft_at, pred0_at, pred1_at, pred2_at, pred3_at, tgt0_at, tgt1_at, tgt2_at, tgt3_at]
  rfl

end Cert.KernelIdeal.Tile

end
-- ==== Proof.KernelAcc.lean ====
/-
  The kernel's run, read as a value (any float instance).

  The output block is one f32 word that every grid point revisits. Point 0 stores zero into it and then adds its
  tile's value; every later point adds its tile's value to what the point before left. So after point n the block
  holds the chain  step(x_n, step(x_{n-1}, ... step(x_0, zero)))  of the per-point value `Tile.step`, by induction on
  the point. The block is written back to its array once, after the last point (127), and the block is the whole
  [1, 1] array. The three host operations after the call reshape the array to a scalar and divide it by 32.
-/
import proofs.«104870_j16071767622181_1_alg».proof.Proof.Gen.KernelIdeal.Frame
import proofs.«104870_j16071767622181_1_alg».proof.Proof.KernelTile
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Tile

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The two cases of the body, as values -/

/-- A point other than the first: the block holding `xo` ends holding the point's value over `xo`. -/
theorem out_B (c : Dev nD) (i : grid0.Coords) (a2 : Memref sig .tc .vmem S1x512x4 .f32) (h2 : a2.IsWhole)
    (a3 : Memref sig .tc .vmem S1x512x4 .f32) (h3 : a3.IsWhole) (a4 : Memref sig .tc .vmem S1x1 .f32) (h4 : a4.IsWhole)
    (hc : ¬cond0_0 i) (x0 x1 : Vec F S1x512x4 .f32) (xo : Vec F S1x1 .f32) :
    out0_B_2 c i a2 h2 a3 h3 a4 h4 hc x0 x1 xo = step x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz2]
  unfold step
  simp only [View.readAt_eq_ld, h2.read_unread, h3.read_unread, h4.read_unread, View.ld_unit_zero (S := S1x512x4) hz3,
    View.ld_unit_zero (S := S1x1) hz2]

/-- The first point: the block is set to zero, read back, and ends holding the point's value over zero. -/
theorem out_A (c : Dev nD) (i : grid0.Coords) (a2 : Memref sig .tc .vmem S1x512x4 .f32) (h2 : a2.IsWhole)
    (a3 : Memref sig .tc .vmem S1x512x4 .f32) (h3 : a3.IsWhole) (a4 : Memref sig .tc .vmem S1x1 .f32) (h4 : a4.IsWhole)
    (hc : cond0_0 i) (x0 x1 : Vec F S1x512x4 .f32) :
    out0_A_2 c i a2 h2 a3 h3 a4 h4 hc x0 x1 = step x0 x1 k0_pay2 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1) hz2, View.readCov_unit_zero (S := S1x1) _ hz2]
  unfold step
  simp only [View.readAt_eq_ld, h2.read_unread, h3.read_unread, View.ld_unit_zero (S := S1x512x4) hz3]

/-! ## The accumulation over the grid -/

/-- The predicted-box block and the target-box block of point `t`, at their literal types. -/
abbrev predBlk (c : Dev nD) (t : Fin cfg0.N) : Vec F S1x512x4 .f32 := iblk m c 0 t
abbrev tgtBlk (c : Dev nD) (t : Fin cfg0.N) : Vec F S1x512x4 .f32 := iblk m c 1 t

/-- The accumulator after point `n`: the per-point values chained from zero. -/
def chain (c : Dev nD) : (n : ℕ) → n < cfg0.N → Vec F S1x1 .f32
  | 0, h => step (predBlk m c ⟨0, h⟩) (tgtBlk m c ⟨0, h⟩) k0_pay2
  | n + 1, h => step (predBlk m c ⟨n + 1, h⟩) (tgtBlk m c ⟨n + 1, h⟩) (chain c n (Nat.lt_of_succ_lt h))

/-- What the output block holds after point `n` is the chain: by induction on the point. -/
theorem outsAt_eq (c : Dev nD) : ∀ (n : ℕ) (h : n < cfg0.N), outsAt0 m c n h = chain m c n h
  | 0, h => (outsAt0_A m c ⟨0, h⟩ rfl).trans (out_A ..)
  | n + 1, h => by
    have hN : cfg0.N = 128 := N_0
    have hB : ¬(⟨n + 1, h⟩ : Fin cfg0.N).val % 128 = 0 := by dsimp only; omega
    rw [outsAt0_B m c ⟨n + 1, h⟩ hB, out_B]
    show step _ _ (outsAt0 m c n _) = step _ _ (chain m c n _)
    rw [outsAt_eq c n]

/-! ## The array after the run, and the host operations after the call -/

/-- The last grid point. -/
abbrev tLast : Fin cfg0.N := ⟨127, by rw [show cfg0.N = 128 from N_0]; decide⟩

/-- The accumulator after the last point, as contents of the call's result array (its one block is the array). -/
abbrev accFinal (c : Dev nD) : Buf (Elt F) ((c : Thread nD τ).loc main_v0) := chain m c 127 tLast.isLt

/-- The one write-back, after point 127, writes it. -/
theorem flushed_eq (c : Dev nD) (t : Fin cfg0.N) (hf : (cfg0.win 2).flush t = true) :
    (dats m 0 c).flushed 2 t = ((cfg0.win 2).blk t).view.read (Elt F) (accFinal m c) := by
  have hN : cfg0.N = 128 := N_0
  have h127 : t.val = 127 := by have := (flush0_2 t).mp hf; have := t.isLt; omega
  obtain rfl : t = tLast := Fin.ext h127
  show (cfg0.win 2).cut (grid0.coords tLast) ((dats m 0 c).after 2 tLast) = _
  rw [after0_2, outsAt_eq]
  have hz' : (fun a => win0_2.index tLast a * main_v0.ty.shape.size a) = fun _ => 0 := funext fun a => by fin_cases a <;> decide
  exact (Memref.read_access_unit_zero (Elt F) main_v0 hz' (fun a => by rw [congrFun hz' a]; simp) (accFinal m c)).symm

/-- So the call's result array ends holding the accumulator after the last point. -/
theorem final_acc (c : Dev nD) : (dats m 0 c).arrAt 2 cfg0.N = accFinal m c :=
  (dats m 0 c).arrAt_eq_of_cover 2 (accFinal m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The program's result: the final accumulator as a scalar, divided by 32. -/
def result (c : Dev nD) : Buf (Elt F) ((c : Thread nD τ).loc main_v2) :=
  Host.divf (shapeCast S_ (accFinal m c) shapeCasts_S1x1_S_) (constant S_ .f32 0x42000000#32)

/-- The three host operations after the call, applied to the call's result array. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v0) = accFinal m c :=
    (Pipeline.withArrays_arr spec0 launch0.win.arr_inj c _ _ 2).trans (final_acc m c)
  rw [e]
  rfl

end Cert.KernelIdeal.Acc

end
-- ==== Proof.KernelValue.lean ====
/-
  The kernel program's result at the ideal values is `GiouLoss.total` of its two box arrays.

  Grid point t works on batch element t / 4: its predicted-box block is rows (t % 4) * 512 .. + 511 of that batch
  element's predicted boxes, its target-box block all 512 target boxes of the batch element (the index maps, decided
  once over the 128 points). So the point adds `GiouLoss.tileLoss` of tile t to the accumulator, the accumulator after
  the last point is zero plus the sum of all tiles' losses, which is the sum over all (batch element, row) pairs, and the
  host operations after the call divide it by 32.
-/
import proofs.«104870_j16071767622181_1_alg».proof.Proof.KernelAcc
import Idealize.ShloMosaic.PureOps.Ideal.Laws

noncomputable section

open Idealize.ShloMosaic Idealize.ShloMosaic.TcCoe Idealize.SL.Sem Idealize.ShloMosaic.ValueIdx GiouLoss
open Idealize.ShloMosaic.Pipeline (Dat)
open scoped BigOperators

namespace Cert.KernelIdeal.Value

open Cert.KernelIdeal Cert.KernelIdeal.Gen Cert.KernelIdeal.Tile Cert.KernelIdeal.Acc

variable (m : (ℓ : Loc nD τ sig) → Buf (Elt Ideal) ℓ) (ρ : Dev nD → PrngReg)

/-- The predicted boxes and the target boxes as the program finds them. -/
abbrev preds (c : Dev nD) : PredIdx → EReal := m ((c : Thread nD τ).loc main_arg1)
abbrev tgts (c : Dev nD) : TgtIdx → EReal := m ((c : Thread nD τ).loc main_arg0)

theorem lt_N {n : ℕ} (h : n < 128) : n < cfg0.N := by rw [show cfg0.N = 128 from N_0]; exact h
theorem lt_128 {n : ℕ} (h : n < cfg0.N) : n < 128 := by rw [show cfg0.N = 128 from N_0] at h; exact h

/-- A grid point as a tile number. -/
def toTile (t : Fin cfg0.N) : Fin 128 := ⟨t.val, lt_128 t.isLt⟩

/-- The block indices of the two input windows at every grid point. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0 :=
  (by decide +kernel : ∀ t : Fin grid0.N, _)

/-- The predicted-box block of point t, at row r and coordinate k. -/
theorem pred_read (c : Dev nD) (t : Fin cfg0.N) (r : Fin 512) (k : Fin 4) :
    predBlk m c t (ix3 0 r k) = preds m c (ix3 (tileBatch (toTile t)) (tileRow (toTile t) r) k) := by
  have hi := idx_facts t
  show ((cfg0.win 0).blk t).view.read (Elt Ideal) (V m c (Pipeline.arrRef spec0 0)) (ix3 0 r k) = _
  rw [View.read_apply]
  refine (congrFun (V_main_arg1 m c) _).trans ?_
  refine congrArg (m ((c : Thread nD τ).loc main_arg1)) (funext fun a => Fin.ext ?_)
  match a with
  | ⟨0, _⟩ => show win0_0.index t 0 * 1 + 1 * 0 = t.val / 4; rw [hi.1]; omega
  | ⟨1, _⟩ => show win0_0.index t 1 * 512 + 1 * r.val = t.val % 4 * 512 + r.val; rw [hi.2.1]; omega
  | ⟨2, _⟩ => show win0_0.index t 2 * 4 + 1 * k.val = k.val; rw [hi.2.2.1]; omega

/-- The target-box block of point t, at target g and coordinate k. -/
theorem tgt_read (c : Dev nD) (t : Fin cfg0.N) (g : Fin 512) (k : Fin 4) :
    tgtBlk m c t (ix3 0 g k) = tgts m c (ix3 (tileBatch (toTile t)) g k) := by
  have hi := idx_facts t
  show ((cfg0.win 1).blk t).view.read (Elt Ideal) (V m c (Pipeline.arrRef spec0 1)) (ix3 0 g k) = _
  rw [View.read_apply]
  refine (congrFun (V_main_arg0 m c) _).trans ?_
  refine congrArg (m ((c : Thread nD τ).loc main_arg0)) (funext fun a => Fin.ext ?_)
  match a with
  | ⟨0, _⟩ => show win0_1.index t 0 * 1 + 1 * 0 = t.val / 4; rw [hi.2.2.2.1]; omega
  | ⟨1, _⟩ => show win0_1.index t 1 * 512 + 1 * g.val = g.val; rw [hi.2.2.2.2.1]; omega
  | ⟨2, _⟩ => show win0_1.index t 2 * 4 + 1 * k.val = k.val; rw [hi.2.2.2.2.2]; omega

/-- What point t adds to the accumulator is the loss of tile t. -/
theorem step_tile (c : Dev nD) (t : Fin cfg0.N) (acc : Vec Ideal S1x1 .f32) :
    step (F := Ideal) (predBlk m c t) (tgtBlk m c t) acc (ix2 0 0)
      = acc (ix2 0 0) + tileLoss (preds m c) (tgts m c) (toTile t) := by
  rw [step_apply]
  unfold tileLoss rowLoss pair
  simp only [pred_read, tgt_read]

/-- The accumulator after point n: zero plus the losses of tiles 0 .. n. -/
theorem chain_apply (c : Dev nD) (n : ℕ) (h : n < 128) :
    chain m c n (lt_N h) (ix2 0 0)
      = zero + ∑ t : Fin (n + 1), tileLoss (preds m c) (tgts m c) ⟨t.val, by have := t.isLt; omega⟩ :=
  running_sum (tileLoss (preds m c) (tgts m c)) (fun n h => chain m c n (lt_N h) (ix2 0 0))
    (fun h => step_tile m c ⟨0, lt_N h⟩ _)
    (fun n h => step_tile m c ⟨n + 1, lt_N h⟩ _) n h

/-- The program's result is the mean over the batch of the summed losses. -/
theorem result_eq (c : Dev nD) : result (F := Ideal) m c = fun _ => total (preds m c) (tgts m c) := by
  funext i
  obtain rfl := eq_ix0 i
  unfold result total
  show Ideal.div (shapeCast S_ (accFinal m c) shapeCasts_S1x1_S_ ix0) thirtyTwo = _
  refine congrArg (fun z => Ideal.div z thirtyTwo) ?_
  refine (shapeCast_apply (accFinal m c) shapeCasts_S1x1_S_ ix0 (ix2 0 0) (by
    show ((S1x1 : Shape).rowMajor (ix2 0 0)).val = _
    rewrite [Shape.rowMajor_val_two]
    have h : ((S_ : Shape).rowMajor ix0).val < 1 := (S_.rowMajor ix0).isLt
    show 0 * 1 + 0 = _
    omega)).trans ?_
  refine (chain_apply m c 127 (by decide)).trans ?_
  rw [← sum_tiles]

/-- The run, read: the result at `total` of the two box arrays, the arguments unchanged. -/
theorem run : θ_run defs (onTc (τ := τ) (main (F := Ideal))) ⟨m, fun _ => 0, ρ⟩ fun r => ∀ c : Dev nD,
      r.2.mem ((c.tc : Thread nD τ).loc main_v2) = (fun _ => total (preds m c) (tgts m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v2 (Pipeline.mem_restRefs_of main_v2 (by decide) (by decide))).trans (tail_eq m c)).trans (result_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c))⟩)
    (run_main m ρ)

end Cert.KernelIdeal.Value

end
-- ==== Proof.RefValue.lean ====
/-
  The reference program's result, read at the ideal values.

  jnp broadcasts the predicted boxes to [32, 2048, 1, 4] and the target boxes to [32, 1, 512, 4], slices one corner
  coordinate at a time and reshapes it to [32, 2048, 1] or [32, 1, 512], and broadcasts both to [32, 2048, 512] for the
  pairwise part. Read at (b, p, g) every such chain is one entry of an argument: coordinate k of predicted box (b, p)
  or of target box (b, g). Over those entries the pairwise part is `GiouLoss.giou`; jnp.clip prints its bound first
  (max 0 x where the kernel has max x 0), which is the same extended real. The maximum over the targets is a fold of max
  from minus infinity over the last axis, the sum over both remaining axes a sum over all (b, p), and the result that
  sum divided by 32: `GiouLoss.total`.
-/
import proofs.«104870_j16071767622181_1_alg».proof.Proof.RefRead
import proofs.«104870_j16071767622181_1_alg».proof.Proof.Giou
import Idealize.ShloMosaic.Lib.Pipeline.Value
import Idealize.ShloMosaic.Lib.ValueIdx
import Idealize.ShloMosaic.PureOps.Ideal.Laws

noncomputable section

open Idealize.ShloMosaic Idealize.ShloMosaic.ValueIdx GiouLoss
open scoped BigOperators

namespace Cert.ReferenceIdeal.RefValue

open Cert.ReferenceIdeal Cert.ReferenceIdeal.ReadP

/-! ## Layout operations at coordinates -/

section Layout
variable {α : Type}

/-- The predicted boxes with a unit target axis, at (b, p, 0, k). -/
theorem predBcast (x : S32x2048x4.Idx → α) (h : S32x2048x4.BroadcastsInDim S32x2048x1x4 ![0, 1, 3])
    (b : Fin 32) (p : Fin 2048) (k : Fin 4) :
    broadcastInDim S32x2048x1x4 ![0, 1, 3] h x (ix4 b p 0 k) = x (ix3 b p k) :=
  broadcastInDim_apply _ h x _ _ (fun a => match a with | ⟨0, _⟩ => rfl | ⟨1, _⟩ => rfl | ⟨2, _⟩ => rfl)

/-- The target boxes with a unit predicted axis, at (b, 0, g, k). -/
theorem tgtBcast (x : S32x512x4.Idx → α) (h : S32x512x4.BroadcastsInDim S32x1x512x4 ![0, 2, 3])
    (b : Fin 32) (g : Fin 512) (k : Fin 4) :
    broadcastInDim S32x1x512x4 ![0, 2, 3] h x (ix4 b 0 g k) = x (ix3 b g k) :=
  broadcastInDim_apply _ h x _ _ (fun a => match a with | ⟨0, _⟩ => rfl | ⟨1, _⟩ => rfl | ⟨2, _⟩ => rfl)

/-- Corner coordinate k sliced out of the predicted boxes. -/
theorem predSlice0 (y : S32x2048x1x4.Idx → α) (h : S32x2048x1x4.Slices ![0, 0, 0, 0] S32x2048x1x1) (b : Fin 32) (p : Fin 2048) :
    extractStridedSlice S32x2048x1x1 ![0, 0, 0, 0] y h (ix4 b p 0 0) = y (ix4 b p 0 0) :=
  extractStridedSlice_apply _ y h _ _ (fun a => match a with
    | ⟨0, _⟩ => by show (b : ℕ) = 0 + (b : ℕ); omega | ⟨1, _⟩ => by show (p : ℕ) = 0 + (p : ℕ); omega | ⟨2, _⟩ => rfl | ⟨3, _⟩ => rfl)
theorem predSlice1 (y : S32x2048x1x4.Idx → α) (h : S32x2048x1x4.Slices ![0, 0, 0, 1] S32x2048x1x1) (b : Fin 32) (p : Fin 2048) :
    extractStridedSlice S32x2048x1x1 ![0, 0, 0, 1] y h (ix4 b p 0 0) = y (ix4 b p 0 1) :=
  extractStridedSlice_apply _ y h _ _ (fun a => match a with
    | ⟨0, _⟩ => by show (b : ℕ) = 0 + (b : ℕ); omega | ⟨1, _⟩ => by show (p : ℕ) = 0 + (p : ℕ); omega | ⟨2, _⟩ => rfl | ⟨3, _⟩ => rfl)
theorem predSlice2 (y : S32x2048x1x4.Idx → α) (h : S32x2048x1x4.Slices ![0, 0, 0, 2] S32x2048x1x1) (b : Fin 32) (p : Fin 2048) :
    extractStridedSlice S32x2048x1x1 ![0, 0, 0, 2] y h (ix4 b p 0 0) = y (ix4 b p 0 2) :=
  extractStridedSlice_apply _ y h _ _ (fun a => match a with
    | ⟨0, _⟩ => by show (b : ℕ) = 0 + (b : ℕ); omega | ⟨1, _⟩ => by show (p : ℕ) = 0 + (p : ℕ); omega | ⟨2, _⟩ => rfl | ⟨3, _⟩ => rfl)
theorem predSlice3 (y : S32x2048x1x4.Idx → α) (h : S32x2048x1x4.Slices ![0, 0, 0, 3] S32x2048x1x1) (b : Fin 32) (p : Fin 2048) :
    extractStridedSlice S32x2048x1x1 ![0, 0, 0, 3] y h (ix4 b p 0 0) = y (ix4 b p 0 3) :=
  extractStridedSlice_apply _ y h _ _ (fun a => match a with
    | ⟨0, _⟩ => by show (b : ℕ) = 0 + (b : ℕ); omega | ⟨1, _⟩ => by show (p : ℕ) = 0 + (p : ℕ); omega | ⟨2, _⟩ => rfl | ⟨3, _⟩ => rfl)

/-- Corner coordinate k sliced out of the target boxes. -/
theorem tgtSlice0 (y : S32x1x512x4.Idx → α) (h : S32x1x512x4.Slices ![0, 0, 0, 0] S32x1x512x1) (b : Fin 32) (g : Fin 512) :
    extractStridedSlice S32x1x512x1 ![0, 0, 0, 0] y h (ix4 b 0 g 0) = y (ix4 b 0 g 0) :=
  extractStridedSlice_apply _ y h _ _ (fun a => match a with
    | ⟨0, _⟩ => by show (b : ℕ) = 0 + (b : ℕ); omega | ⟨1, _⟩ => rfl | ⟨2, _⟩ => by show (g : ℕ) = 0 + (g : ℕ); omega | ⟨3, _⟩ => rfl)
theorem tgtSlice1 (y : S32x1x512x4.Idx → α) (h : S32x1x512x4.Slices ![0, 0, 0, 1] S32x1x512x1) (b : Fin 32) (g : Fin 512) :
    extractStridedSlice S32x1x512x1 ![0, 0, 0, 1] y h (ix4 b 0 g 0) = y (ix4 b 0 g 1) :=
  extractStridedSlice_apply _ y h _ _ (fun a => match a with
    | ⟨0, _⟩ => by show (b : ℕ) = 0 + (b : ℕ); omega | ⟨1, _⟩ => rfl | ⟨2, _⟩ => by show (g : ℕ) = 0 + (g : ℕ); omega | ⟨3, _⟩ => rfl)
theorem tgtSlice2 (y : S32x1x512x4.Idx → α) (h : S32x1x512x4.Slices ![0, 0, 0, 2] S32x1x512x1) (b : Fin 32) (g : Fin 512) :
    extractStridedSlice S32x1x512x1 ![0, 0, 0, 2] y h (ix4 b 0 g 0) = y (ix4 b 0 g 2) :=
  extractStridedSlice_apply _ y h _ _ (fun a => match a with
    | ⟨0, _⟩ => by show (b : ℕ) = 0 + (b : ℕ); omega | ⟨1, _⟩ => rfl | ⟨2, _⟩ => by show (g : ℕ) = 0 + (g : ℕ); omega | ⟨3, _⟩ => rfl)
theorem tgtSlice3 (y : S32x1x512x4.Idx → α) (h : S32x1x512x4.Slices ![0, 0, 0, 3] S32x1x512x1) (b : Fin 32) (g : Fin 512) :
    extractStridedSlice S32x1x512x1 ![0, 0, 0, 3] y h (ix4 b 0 g 0) = y (ix4 b 0 g 3) :=
  extractStridedSlice_apply _ y h _ _ (fun a => match a with
    | ⟨0, _⟩ => by show (b : ℕ) = 0 + (b : ℕ); omega | ⟨1, _⟩ => rfl | ⟨2, _⟩ => by show (g : ℕ) = 0 + (g : ℕ); omega | ⟨3, _⟩ => rfl)

/-- Dropping the trailing unit axis of a sliced coordinate. -/
theorem predReshape (y : S32x2048x1x1.Idx → α) (h : S32x2048x1x1.ShapeCasts S32x2048x1) (b : Fin 32) (p : Fin 2048) :
    shapeCast S32x2048x1 y h (ix3 b p 0) = y (ix4 b p 0 0) :=
  shapeCast_apply y h _ _ (by
    rewrite [Shape.rowMajor_val_four, Shape.rowMajor_val_three]
    show (((b : ℕ) * 2048 + (p : ℕ)) * 1 + 0) * 1 + 0 = ((b : ℕ) * 2048 + (p : ℕ)) * 1 + 0
    omega)
theorem tgtReshape (y : S32x1x512x1.Idx → α) (h : S32x1x512x1.ShapeCasts S32x1x512) (b : Fin 32) (g : Fin 512) :
    shapeCast S32x1x512 y h (ix3 b 0 g) = y (ix4 b 0 g 0) :=
  shapeCast_apply y h _ _ (by
    rewrite [Shape.rowMajor_val_four, Shape.rowMajor_val_three]
    show (((b : ℕ) * 1 + 0) * 512 + (g : ℕ)) * 1 + 0 = ((b : ℕ) * 1 + 0) * 512 + (g : ℕ)
    omega)

/-- A per-predicted-box value broadcast over the targets, and a per-target value broadcast over the predicted boxes. -/
theorem overTargets (y : S32x2048x1.Idx → α) (h : S32x2048x1.BroadcastsInDim S32x2048x512 ![0, 1, 2])
    (b : Fin 32) (p : Fin 2048) (g : Fin 512) :
    broadcastInDim S32x2048x512 ![0, 1, 2] h y (ix3 b p g) = y (ix3 b p 0) :=
  broadcastInDim_apply _ h y _ _ (fun a => match a with | ⟨0, _⟩ => rfl | ⟨1, _⟩ => rfl | ⟨2, _⟩ => rfl)
theorem overPreds (y : S32x1x512.Idx → α) (h : S32x1x512.BroadcastsInDim S32x2048x512 ![0, 1, 2])
    (b : Fin 32) (p : Fin 2048) (g : Fin 512) :
    broadcastInDim S32x2048x512 ![0, 1, 2] h y (ix3 b p g) = y (ix3 b 0 g) :=
  broadcastInDim_apply _ h y _ _ (fun a => match a with | ⟨0, _⟩ => rfl | ⟨1, _⟩ => rfl | ⟨2, _⟩ => rfl)

end Layout

/-- A constant broadcast to a shape is the constant's value at every index. -/
theorem constP (w : BitVec 32) (h : S_.BroadcastsInDim S32x2048x1 ![]) (i : S32x2048x1.Idx) :
    broadcastInDim S32x2048x1 ![] h (constant (F := Ideal) S_ .f32 w) i = Ideal.ofBits .f32 w := rfl
theorem constT (w : BitVec 32) (h : S_.BroadcastsInDim S32x1x512 ![]) (i : S32x1x512.Idx) :
    broadcastInDim S32x1x512 ![] h (constant (F := Ideal) S_ .f32 w) i = Ideal.ofBits .f32 w := rfl
theorem constPT (w : BitVec 32) (h : S_.BroadcastsInDim S32x2048x512 ![]) (i : S32x2048x512.Idx) :
    broadcastInDim S32x2048x512 ![] h (constant (F := Ideal) S_ .f32 w) i = Ideal.ofBits .f32 w := rfl
theorem constRows (w : BitVec 32) (h : S_.BroadcastsInDim S32x2048 ![]) (i : S32x2048.Idx) :
    broadcastInDim S32x2048 ![] h (constant (F := Ideal) S_ .f32 w) i = Ideal.ofBits .f32 w := rfl

theorem hostDivf_apply {s : Shape} (x y : FVec Ideal s .f32) (i : s.Idx) : Host.divf x y i = Ideal.div (x i) (y i) := rfl

/-- jnp.clip's lower bound comes first in the printed maximum. -/
theorem side_comm (lo hi : EReal) : max zero (hi - lo + one) = side lo hi := max_comm _ _

variable (x0 : (⟨S32x512x4, .f32⟩ : BufTy).Contents (Elt Ideal)) (x1 : (⟨S32x2048x4, .f32⟩ : BufTy).Contents (Elt Ideal))

/-! ## The corner coordinates: every sliced-and-reshaped stage is one entry of an argument -/

section Leaves
variable (b : Fin 32) (p : Fin 2048) (g : Fin 512)

theorem v3_at : val_main_v3 (F := Ideal) x1 (ix3 b p 0) = x1 (ix3 b p 2) := by
  unfold val_main_v3 val_main_v2 val_main_v0; exact (predReshape _ _ b p).trans ((predSlice2 _ _ b p).trans (predBcast x1 _ b p 2))
theorem v5_at : val_main_v5 (F := Ideal) x1 (ix3 b p 0) = x1 (ix3 b p 0) := by
  unfold val_main_v5 val_main_v4 val_main_v0; exact (predReshape _ _ b p).trans ((predSlice0 _ _ b p).trans (predBcast x1 _ b p 0))
theorem v11_at : val_main_v11 (F := Ideal) x1 (ix3 b p 0) = x1 (ix3 b p 3) := by
  unfold val_main_v11 val_main_v10 val_main_v0; exact (predReshape _ _ b p).trans ((predSlice3 _ _ b p).trans (predBcast x1 _ b p 3))
theorem v13_at : val_main_v13 (F := Ideal) x1 (ix3 b p 0) = x1 (ix3 b p 1) := by
  unfold val_main_v13 val_main_v12 val_main_v0; exact (predReshape _ _ b p).trans ((predSlice1 _ _ b p).trans (predBcast x1 _ b p 1))
theorem v37_at : val_main_v37 (F := Ideal) x1 (ix3 b p 0) = x1 (ix3 b p 0) := by
  unfold val_main_v37 val_main_v36 val_main_v0; exact (predReshape _ _ b p).trans ((predSlice0 _ _ b p).trans (predBcast x1 _ b p 0))
theorem v44_at : val_main_v44 (F := Ideal) x1 (ix3 b p 0) = x1 (ix3 b p 1) := by
  unfold val_main_v44 val_main_v43 val_main_v0; exact (predReshape _ _ b p).trans ((predSlice1 _ _ b p).trans (predBcast x1 _ b p 1))
theorem v51_at : val_main_v51 (F := Ideal) x1 (ix3 b p 0) = x1 (ix3 b p 2) := by
  unfold val_main_v51 val_main_v50 val_main_v0; exact (predReshape _ _ b p).trans ((predSlice2 _ _ b p).trans (predBcast x1 _ b p 2))
theorem v58_at : val_main_v58 (F := Ideal) x1 (ix3 b p 0) = x1 (ix3 b p 3) := by
  unfold val_main_v58 val_main_v57 val_main_v0; exact (predReshape _ _ b p).trans ((predSlice3 _ _ b p).trans (predBcast x1 _ b p 3))
theorem v81_at : val_main_v81 (F := Ideal) x1 (ix3 b p 0) = x1 (ix3 b p 0) := by
  unfold val_main_v81 val_main_v80 val_main_v0; exact (predReshape _ _ b p).trans ((predSlice0 _ _ b p).trans (predBcast x1 _ b p 0))
theorem v88_at : val_main_v88 (F := Ideal) x1 (ix3 b p 0) = x1 (ix3 b p 1) := by
  unfold val_main_v88 val_main_v87 val_main_v0; exact (predReshape _ _ b p).trans ((predSlice1 _ _ b p).trans (predBcast x1 _ b p 1))
theorem v95_at : val_main_v95 (F := Ideal) x1 (ix3 b p 0) = x1 (ix3 b p 2) := by
  unfold val_main_v95 val_main_v94 val_main_v0; exact (predReshape _ _ b p).trans ((predSlice2 _ _ b p).trans (predBcast x1 _ b p 2))
theorem v102_at : val_main_v102 (F := Ideal) x1 (ix3 b p 0) = x1 (ix3 b p 3) := by
  unfold val_main_v102 val_main_v101 val_main_v0; exact (predReshape _ _ b p).trans ((predSlice3 _ _ b p).trans (predBcast x1 _ b p 3))

theorem v19_at : val_main_v19 (F := Ideal) x0 (ix3 b 0 g) = x0 (ix3 b g 2) := by
  unfold val_main_v19 val_main_v18 val_main_v1; exact (tgtReshape _ _ b g).trans ((tgtSlice2 _ _ b g).trans (tgtBcast x0 _ b g 2))
theorem v21_at : val_main_v21 (F := Ideal) x0 (ix3 b 0 g) = x0 (ix3 b g 0) := by
  unfold val_main_v21 val_main_v20 val_main_v1; exact (tgtReshape _ _ b g).trans ((tgtSlice0 _ _ b g).trans (tgtBcast x0 _ b g 0))
theorem v27_at : val_main_v27 (F := Ideal) x0 (ix3 b 0 g) = x0 (ix3 b g 3) := by
  unfold val_main_v27 val_main_v26 val_main_v1; exact (tgtReshape _ _ b g).trans ((tgtSlice3 _ _ b g).trans (tgtBcast x0 _ b g 3))
theorem v29_at : val_main_v29 (F := Ideal) x0 (ix3 b 0 g) = x0 (ix3 b g 1) := by
  unfold val_main_v29 val_main_v28 val_main_v1; exact (tgtReshape _ _ b g).trans ((tgtSlice1 _ _ b g).trans (tgtBcast x0 _ b g 1))
theorem v39_at : val_main_v39 (F := Ideal) x0 (ix3 b 0 g) = x0 (ix3 b g 0) := by
  unfold val_main_v39 val_main_v38 val_main_v1; exact (tgtReshape _ _ b g).trans ((tgtSlice0 _ _ b g).trans (tgtBcast x0 _ b g 0))
theorem v46_at : val_main_v46 (F := Ideal) x0 (ix3 b 0 g) = x0 (ix3 b g 1) := by
  unfold val_main_v46 val_main_v45 val_main_v1; exact (tgtReshape _ _ b g).trans ((tgtSlice1 _ _ b g).trans (tgtBcast x0 _ b g 1))
theorem v53_at : val_main_v53 (F := Ideal) x0 (ix3 b 0 g) = x0 (ix3 b g 2) := by
  unfold val_main_v53 val_main_v52 val_main_v1; exact (tgtReshape _ _ b g).trans ((tgtSlice2 _ _ b g).trans (tgtBcast x0 _ b g 2))
theorem v60_at : val_main_v60 (F := Ideal) x0 (ix3 b 0 g) = x0 (ix3 b g 3) := by
  unfold val_main_v60 val_main_v59 val_main_v1; exact (tgtReshape _ _ b g).trans ((tgtSlice3 _ _ b g).trans (tgtBcast x0 _ b g 3))
theorem v83_at : val_main_v83 (F := Ideal) x0 (ix3 b 0 g) = x0 (ix3 b g 0) := by
  unfold val_main_v83 val_main_v82 val_main_v1; exact (tgtReshape _ _ b g).trans ((tgtSlice0 _ _ b g).trans (tgtBcast x0 _ b g 0))
theorem v90_at : val_main_v90 (F := Ideal) x0 (ix3 b 0 g) = x0 (ix3 b g 1) := by
  unfold val_main_v90 val_main_v89 val_main_v1; exact (tgtReshape _ _ b g).trans ((tgtSlice1 _ _ b g).trans (tgtBcast x0 _ b g 1))
theorem v97_at : val_main_v97 (F := Ideal) x0 (ix3 b 0 g) = x0 (ix3 b g 2) := by
  unfold val_main_v97 val_main_v96 val_main_v1; exact (tgtReshape _ _ b g).trans ((tgtSlice2 _ _ b g).trans (tgtBcast x0 _ b g 2))
theorem v104_at : val_main_v104 (F := Ideal) x0 (ix3 b 0 g) = x0 (ix3 b g 3) := by
  unfold val_main_v104 val_main_v103 val_main_v1; exact (tgtReshape _ _ b g).trans ((tgtSlice3 _ _ b g).trans (tgtBcast x0 _ b g 3))

end Leaves

/-! ## The areas of the two boxes -/

/-- The area of predicted box (b, p). -/
theorem predArea_at (b : Fin 32) (p : Fin 2048) :
    val_main_v34 (F := Ideal) x1 (ix3 b p 0)
      = side (x1 (ix3 b p 0)) (x1 (ix3 b p 2)) * side (x1 (ix3 b p 1)) (x1 (ix3 b p 3)) := by
  simp only [val_main_v34, val_main_v9, val_main_v17, val_main_call0_v1, val_main_call0_v0, val_main_call1_v1, val_main_call1_v0,
    val_main_cst_0, val_main_cst_2, val_main_v8, val_main_v16, val_main_v7, val_main_v15, val_main_cst, val_main_cst_1,
    val_main_v6, val_main_v14, id_eq,
    mulf_apply, maximumf_apply, addf_apply, subf_apply, v3_at, v5_at, v11_at, v13_at]
  exact congrArg₂ (· * ·) (max_comm _ _) (max_comm _ _)

/-- The area of target box (b, g). -/
theorem tgtArea_at (b : Fin 32) (g : Fin 512) :
    val_main_v35 (F := Ideal) x0 (ix3 b 0 g)
      = side (x0 (ix3 b g 0)) (x0 (ix3 b g 2)) * side (x0 (ix3 b g 1)) (x0 (ix3 b g 3)) := by
  simp only [val_main_v35, val_main_v25, val_main_v33, val_main_call2_v1, val_main_call2_v0, val_main_call3_v1, val_main_call3_v0,
    val_main_cst_4, val_main_cst_6, val_main_v24, val_main_v32, val_main_v23, val_main_v31, val_main_cst_3, val_main_cst_5,
    val_main_v22, val_main_v30, id_eq,
    mulf_apply, maximumf_apply, addf_apply, subf_apply, v19_at, v21_at, v27_at, v29_at]
  exact congrArg₂ (· * ·) (max_comm _ _) (max_comm _ _)

/-! ## The broadcasts to [32, 2048, 512], at (b, p, g) -/

section Stages
variable (b : Fin 32) (p : Fin 2048) (g : Fin 512)

theorem v40_at : val_main_v40 (F := Ideal) x1 (ix3 b p g) = x1 (ix3 b p 0) := by
  unfold val_main_v40; exact (overTargets _ _ b p g).trans (v37_at x1 b p)
theorem v41_at : val_main_v41 (F := Ideal) x0 (ix3 b p g) = x0 (ix3 b g 0) := by
  unfold val_main_v41; exact (overPreds _ _ b p g).trans (v39_at x0 b g)
theorem v47_at : val_main_v47 (F := Ideal) x1 (ix3 b p g) = x1 (ix3 b p 1) := by
  unfold val_main_v47; exact (overTargets _ _ b p g).trans (v44_at x1 b p)
theorem v48_at : val_main_v48 (F := Ideal) x0 (ix3 b p g) = x0 (ix3 b g 1) := by
  unfold val_main_v48; exact (overPreds _ _ b p g).trans (v46_at x0 b g)
theorem v54_at : val_main_v54 (F := Ideal) x1 (ix3 b p g) = x1 (ix3 b p 2) := by
  unfold val_main_v54; exact (overTargets _ _ b p g).trans (v51_at x1 b p)
theorem v55_at : val_main_v55 (F := Ideal) x0 (ix3 b p g) = x0 (ix3 b g 2) := by
  unfold val_main_v55; exact (overPreds _ _ b p g).trans (v53_at x0 b g)
theorem v61_at : val_main_v61 (F := Ideal) x1 (ix3 b p g) = x1 (ix3 b p 3) := by
  unfold val_main_v61; exact (overTargets _ _ b p g).trans (v58_at x1 b p)
theorem v62_at : val_main_v62 (F := Ideal) x0 (ix3 b p g) = x0 (ix3 b g 3) := by
  unfold val_main_v62; exact (overPreds _ _ b p g).trans (v60_at x0 b g)
theorem v84_at : val_main_v84 (F := Ideal) x1 (ix3 b p g) = x1 (ix3 b p 0) := by
  unfold val_main_v84; exact (overTargets _ _ b p g).trans (v81_at x1 b p)
theorem v85_at : val_main_v85 (F := Ideal) x0 (ix3 b p g) = x0 (ix3 b g 0) := by
  unfold val_main_v85; exact (overPreds _ _ b p g).trans (v83_at x0 b g)
theorem v91_at : val_main_v91 (F := Ideal) x1 (ix3 b p g) = x1 (ix3 b p 1) := by
  unfold val_main_v91; exact (overTargets _ _ b p g).trans (v88_at x1 b p)
theorem v92_at : val_main_v92 (F := Ideal) x0 (ix3 b p g) = x0 (ix3 b g 1) := by
  unfold val_main_v92; exact (overPreds _ _ b p g).trans (v90_at x0 b g)
theorem v98_at : val_main_v98 (F := Ideal) x1 (ix3 b p g) = x1 (ix3 b p 2) := by
  unfold val_main_v98; exact (overTargets _ _ b p g).trans (v95_at x1 b p)
theorem v99_at : val_main_v99 (F := Ideal) x0 (ix3 b p g) = x0 (ix3 b g 2) := by
  unfold val_main_v99; exact (overPreds _ _ b p g).trans (v97_at x0 b g)
theorem v105_at : val_main_v105 (F := Ideal) x1 (ix3 b p g) = x1 (ix3 b p 3) := by
  unfold val_main_v105; exact (overTargets _ _ b p g).trans (v102_at x1 b p)
theorem v106_at : val_main_v106 (F := Ideal) x0 (ix3 b p g) = x0 (ix3 b g 3) := by
  unfold val_main_v106; exact (overPreds _ _ b p g).trans (v104_at x0 b g)
theorem v73_at : val_main_v73 (F := Ideal) x1 (ix3 b p g)
    = side (x1 (ix3 b p 0)) (x1 (ix3 b p 2)) * side (x1 (ix3 b p 1)) (x1 (ix3 b p 3)) := by
  unfold val_main_v73; exact (overTargets _ _ b p g).trans (predArea_at x1 b p)
theorem v74_at : val_main_v74 (F := Ideal) x0 (ix3 b p g)
    = side (x0 (ix3 b g 0)) (x0 (ix3 b g 2)) * side (x0 (ix3 b g 1)) (x0 (ix3 b g 3)) := by
  unfold val_main_v74; exact (overPreds _ _ b p g).trans (tgtArea_at x0 b g)

end Stages

/-! ## The pairwise part at (b, p, g) -/

section Pairwise
variable (b : Fin 32) (p : Fin 2048) (g : Fin 512)

/-- The intersection's area. -/
theorem inter_at :
    val_main_v72 (F := Ideal) x0 x1 (ix3 b p g)
      = side (max (x1 (ix3 b p 0)) (x0 (ix3 b g 0))) (min (x1 (ix3 b p 2)) (x0 (ix3 b g 2)))
        * side (max (x1 (ix3 b p 1)) (x0 (ix3 b g 1))) (min (x1 (ix3 b p 3)) (x0 (ix3 b g 3))) := by
  simp only [val_main_v72, val_main_v67, val_main_v71, val_main_call4_v1, val_main_call4_v0, val_main_call5_v1, val_main_call5_v0,
    val_main_cst_8, val_main_cst_10, val_main_v66, val_main_v70, val_main_v65, val_main_v69, val_main_cst_7, val_main_cst_9,
    val_main_v64, val_main_v68, val_main_v56, val_main_v42, val_main_v63, val_main_v49, id_eq,
    mulf_apply, maximumf_apply, minimumf_apply, addf_apply, subf_apply,
    v40_at, v41_at, v47_at, v48_at, v54_at, v55_at, v61_at, v62_at]
  exact congrArg₂ (· * ·) (max_comm _ _) (max_comm _ _)

/-- The union's area. -/
theorem union_at :
    val_main_v76 (F := Ideal) x0 x1 (ix3 b p g)
      = side (x1 (ix3 b p 0)) (x1 (ix3 b p 2)) * side (x1 (ix3 b p 1)) (x1 (ix3 b p 3))
        + side (x0 (ix3 b g 0)) (x0 (ix3 b g 2)) * side (x0 (ix3 b g 1)) (x0 (ix3 b g 3))
        - val_main_v72 (F := Ideal) x0 x1 (ix3 b p g) := by
  simp only [val_main_v76, val_main_v75, addf_apply, subf_apply, v73_at, v74_at]

/-- The enclosing box's area. -/
theorem outer_at :
    val_main_v116 (F := Ideal) x0 x1 (ix3 b p g)
      = side (min (x1 (ix3 b p 0)) (x0 (ix3 b g 0))) (max (x1 (ix3 b p 2)) (x0 (ix3 b g 2)))
        * side (min (x1 (ix3 b p 1)) (x0 (ix3 b g 1))) (max (x1 (ix3 b p 3)) (x0 (ix3 b g 3))) := by
  simp only [val_main_v116, val_main_v111, val_main_v115, val_main_call6_v1, val_main_call6_v0, val_main_call7_v1, val_main_call7_v0,
    val_main_cst_13, val_main_cst_15, val_main_v110, val_main_v114, val_main_v109, val_main_v113, val_main_cst_12, val_main_cst_14,
    val_main_v108, val_main_v112, val_main_v100, val_main_v86, val_main_v107, val_main_v93, id_eq,
    mulf_apply, maximumf_apply, minimumf_apply, addf_apply, subf_apply,
    v84_at, v85_at, v91_at, v92_at, v98_at, v99_at, v105_at, v106_at]
  exact congrArg₂ (· * ·) (max_comm _ _) (max_comm _ _)

/-- The clipped giou of predicted box (b, p) and target box (b, g). -/
theorem clipped_at : val_main_v120 (F := Ideal) x0 x1 (ix3 b p g) = pair x1 x0 b p g := by
  simp only [val_main_v120, val_main_call8_v4, val_main_call8_v3, val_main_cst_17, val_main_call8_v2, val_main_call8_v1,
    val_main_call8_v0, val_main_cst_16, val_main_v119, val_main_v79, val_main_v78, val_main_cst_11, val_main_v77,
    val_main_v118, val_main_v117, id_eq,
    maximumf_apply, minimumf_apply, subf_apply, hostDivf_apply, union_at, outer_at, inter_at]
  exact (min_comm _ _).trans (congrArg (fun z => min z one) (max_comm _ _))

end Pairwise

/-! ## The reductions and the result -/

/-- Dropping the target axis. -/
theorem dropsTargets : S32x2048x512.Reduces [2] S32x2048 := by decide

/-- The host's maximum over the targets, at (b, p): the fold of max from the initial value over the targets' entries. -/
theorem targetMax (w : FVec Ideal S32x2048x512 .f32) (init : FVec Ideal S_ .f32)
    (h' : S32x2048x512.ReducesTo [2] S32x2048) (hu : 0 < S_.numel) (b : Fin 32) (p : Fin 2048) :
    Host.reduce (FloatOps.maximumf (F := Ideal) (φ := .f32)) w init h' hu (ix2 b p)
      = Finset.univ.fold max (init (Shape.Idx.first hu)) (fun g : Fin 512 => w (ix3 b p g)) := by
  refine (Host.reduce_eq_fold_single (FloatOps.maximumf (F := Ideal) (φ := .f32)) w init h' dropsTargets hu (ix2 b p)).trans ?_
  refine Finset.fold_congr (fun g _ => ?_)
  show w (dropsTargets.lift (ix2 b p) g) = w (ix3 b p g)
  refine congrArg w (funext fun a => ?_)
  match a with
  | ⟨0, _⟩ => exact Fin.ext rfl
  | ⟨1, _⟩ => exact Fin.ext rfl
  | ⟨2, _⟩ => exact Fin.ext rfl

/-- The loss of predicted box (b, p). -/
theorem rowLoss_at (b : Fin 32) (p : Fin 2048) :
    val_main_v123 (F := Ideal) x0 x1 (ix2 b p) = rowLoss x1 x0 b p := by
  unfold rowLoss
  rw [val_main_v123_apply]
  refine congrArg₂ (fun u v : EReal => u - v) rfl ?_
  unfold val_main_v121
  refine (targetMax _ _ _ _ b p).trans ?_
  refine Finset.fold_congr (fun g _ => ?_)
  exact clipped_at x0 x1 b p g

/-- The program's result is the mean over the batch of the summed losses. -/
theorem result_eq : val_main_v125 (F := Ideal) x0 x1 = fun _ => total x1 x0 := by
  funext i
  rw [val_main_v125_apply, val_main_v124_apply]
  unfold total
  refine congrArg₂ (fun u v : EReal => Ideal.div u v) (congrArg (fun z : EReal => zero + z) ?_) rfl
  refine Finset.sum_congr rfl (fun j _ => ?_)
  obtain ⟨b, p, rfl⟩ : ∃ (b : Fin 32) (p : Fin 2048), j = ix2 b p := ⟨j 0, j 1, eq_ix2 j⟩
  exact rowLoss_at x0 x1 b p

end Cert.ReferenceIdeal.RefValue

end
-- ==== Proof.lean ====
/-
  The kernel computes a GIoU matching loss: for each of 32 batch elements and each of its 2048 predicted boxes, one
  minus the largest clipped generalized intersection over union against the batch element's 512 target boxes; the
  losses are summed and divided by 32.

  The kernel walks a 32 x 4 grid. Point (b, q) takes predicted boxes q * 512 .. q * 512 + 511 of batch element b and
  all targets of b, forms the 512 x 512 table of clipped gious on the vector unit, takes each row's maximum, sums
  1 - max over the rows, and adds that number to a one-word accumulator that every point revisits (set to zero at the
  first point, written back after the last). The host then divides the word by 32. The reference forms the whole
  32 x 2048 x 512 table at once, takes the maximum over the last axis, sums 1 - max over the other two and divides by 32.

  At the ideal values both are GiouLoss.total of the two box arrays:
    * the pairwise formula is the same scalar expression on both sides (GiouLoss.giou); jnp.clip's maximum has its
      bound as the first argument where the kernel has it as the second, and max and min are commutative;
    * a row maximum is, on both sides, the fold of max from minus infinity over the 512 targets;
    * the kernel's accumulator after the last point is zero plus the sum over the 128 grid points of the sum over each
      point's 512 rows, and re-indexing (point, row) as (batch element, predicted box) is a bijection, so this is
      the reference's sum over all (batch element, predicted box) pairs: addition on the extended reals is
      commutative and associative, and nothing else is used, so the finiteness of the inputs is not needed.
  The ideal pass rewrote nothing in the kernel, so the preservation conjunct is trivial. The three frames are the
  generated ones (the reference's is its run with the value dropped).
-/
import proofs.«104870_j16071767622181_1_alg».proof.Defs
import proofs.«104870_j16071767622181_1_alg».proof.Proof.Gen.Kernel
import proofs.«104870_j16071767622181_1_alg».proof.Proof.Gen.Kernel.Skeleton
import proofs.«104870_j16071767622181_1_alg».proof.Proof.Gen.Kernel.Launch
import proofs.«104870_j16071767622181_1_alg».proof.Proof.Gen.Kernel.Points
import proofs.«104870_j16071767622181_1_alg».proof.Proof.Gen.Kernel.Frame
import proofs.«104870_j16071767622181_1_alg».proof.Proof.Gen.KernelIdeal
import proofs.«104870_j16071767622181_1_alg».proof.Proof.Gen.KernelIdeal.Skeleton
import proofs.«104870_j16071767622181_1_alg».proof.Proof.Gen.KernelIdeal.Launch
import proofs.«104870_j16071767622181_1_alg».proof.Proof.Gen.KernelIdeal.Points
import proofs.«104870_j16071767622181_1_alg».proof.Proof.Gen.KernelIdeal.Frame
import proofs.«104870_j16071767622181_1_alg».proof.Proof.Gen.ReferenceIdeal
import proofs.«104870_j16071767622181_1_alg».proof.Proof.Gen.Pre_finite_inputs
import proofs.«104870_j16071767622181_1_alg».proof.Proof.KernelValue
import proofs.«104870_j16071767622181_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel [hKernel : Cert.Kernel.Facts] [hPre : Cert.Pre_finite_inputs.Facts] : Cert.frame_Kernel :=
  fun m ρ _ => Cert.Kernel.Gen.frame m ρ

/-- The idealized kernel runs and leaves its arguments unchanged. -/
theorem frame_kernelIdeal [hKernelIdeal : Cert.KernelIdeal.Facts] [hPre : Cert.Pre_finite_inputs.Facts] :
    Cert.frame_KernelIdeal :=
  fun m ρ _ => Cert.KernelIdeal.Gen.frame m ρ

/-- The reference runs and leaves its arguments unchanged: its run with the value dropped. -/
theorem frame_reference [hReferenceIdeal : Cert.ReferenceIdeal.Facts] [hPre : Cert.Pre_finite_inputs.Facts] :
    Cert.frame_ReferenceIdeal :=
  fun m ρ _ => (θ_run Cert.ReferenceIdeal.defs _ _).mono (fun _ h c => (h c).2)
    (Cert.ReferenceIdeal.ValueP.run (F := Ideal) m ρ)

/-- Both idealized programs end with the mean over the batch of the summed losses of the same two box arrays. -/
theorem algebraic [hKernelIdeal : Cert.KernelIdeal.Facts] [hReferenceIdeal : Cert.ReferenceIdeal.Facts]
    [hPre : Cert.Pre_finite_inputs.Facts] : Cert.algebraic_KernelIdeal_ReferenceIdeal := by
  intro m ρ m' ρ' _ hagree
  refine ⟨fun c => fun _ => GiouLoss.total (Cert.KernelIdeal.Value.preds m c) (Cert.KernelIdeal.Value.tgts m c),
    Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v125_eq, Cert.ReferenceIdeal.RefValue.result_eq, (hagree c).1, (hagree c).2.1]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
